-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg5 : FVec F S128x256 .f32) (main_arg6 : FVec F S128x256 .f32) (main_arg7 : FVec F S256 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x256 .f32 := Host.absf main_arg5
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128x256 .f32 := Host.absf main_arg6
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128x128 .f32) (main_arg4 : FVec F S128 .f32) (main_arg5 : FVec F S128x256 .f32) (main_arg6 : FVec F S128x256 .f32) (main_arg7 : FVec F S256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S2000x128 : Shape := ⟨2, ![2000, 128]⟩
abbrev S2000 : Shape := ⟨1, ![2000]⟩
abbrev S2000x1 : Shape := ⟨2, ![2000, 1]⟩
abbrev S1x256 : Shape := ⟨2, ![1, 256]⟩
abbrev S50000x256 : Shape := ⟨2, ![50000, 256]⟩
abbrev S2000x256 : Shape := ⟨2, ![2000, 256]⟩

abbrev nBuf : Space → Nat
  | .hbm => 66
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x256, .f32⟩
  | .hbm, ⟨6, _⟩ => ⟨S128x256, .f32⟩
  | .hbm, ⟨7, _⟩ => ⟨S256, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S1x128, .f32⟩
  | .hbm, ⟨38, _⟩ => ⟨S50000x128, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x128, .f32⟩
  | .hbm, ⟨48, _⟩ => ⟨S_, .f32⟩
  | .hbm, ⟨49, _⟩ => ⟨S50000x128, .f32⟩
  | .hbm, ⟨50, _⟩ => ⟨S800000x1, .i32⟩
  | .hbm, ⟨51, _⟩ => ⟨S50000x128, .f32⟩
  | .hbm, ⟨52, _⟩ => ⟨S_, .f32⟩
  | .hbm, ⟨53, _⟩ => ⟨S800000, .f32⟩
  | .hbm, ⟨54, _⟩ => ⟨S_, .f32⟩
  | .hbm, ⟨55, _⟩ => ⟨S50000, .f32⟩
  | .hbm, ⟨56, _⟩ => ⟨S800000x1, .i32⟩
  | .hbm, ⟨57, _⟩ => ⟨S50000, .f32⟩
  | .hbm, ⟨58, _⟩ => ⟨S_, .f32⟩
  | .hbm, ⟨59, _⟩ => ⟨S50000, .f32⟩
  | .hbm, ⟨60, _⟩ => ⟨S50000, .f32⟩
  | .hbm, ⟨61, _⟩ => ⟨S50000x1, .f32⟩
  | .hbm, ⟨62, _⟩ => ⟨S50000x128, .f32⟩
  | .hbm, ⟨63, _⟩ => ⟨S50000x128, .f32⟩
  | .hbm, ⟨64, _⟩ => ⟨S1x256, .f32⟩
  | .hbm, ⟨65, _⟩ => ⟨S50000x256, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x256, .f32⟩
  | .local _ .vmem, ⟨14, _⟩ => ⟨S128x256, .f32⟩
  | .local _ .vmem, ⟨15, _⟩ => ⟨S1x256, .f32⟩
  | .local _ .vmem, ⟨16, _⟩ => ⟨S2000x256, .f32⟩
  | .local _ .vmem, ⟨17, _⟩ => ⟨S2000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  shapeCasts_S256_S1x256 : S256.ShapeCasts S1x256
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  reduces_S2000x256_S2000 : S2000x256.Reduces [1] S2000
  broadcasts_S2000x1_S2000x256 : S2000x1.Broadcasts S2000x256
  inb_S2000x256_S2000x256_0_0 : ∀ a, (![0, 0] : Fin 2 → Nat) a + S2000x256.size a ≤ S2000x256.size a
  h_S2000x256 : 0 < S2000x256.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S2000x128_S128x128_S2000x128_1_0_0_1_n_n_wf : DotDims.WF S2000x128 S128x128 S2000x128 [1] [0] [0] [1] [] []
  dot_S2000x128_S128x256_S2000x256_1_0_0_1_n_n_wf : DotDims.WF S2000x128 S128x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S128x256.size a
  hwx1_2 : ∀ i : grid1.Coords, EltTy.bits .f32 = 32 ∨ (Rect.block (s := S128x256) S128x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x256.size a ≤ S128x256.size a
  hwx1_3 : ∀ i : grid1.Coords, EltTy.bits .f32 = 32 ∨ (Rect.block (s := S128x256) S128x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S50000x256 : Shape := ⟨2, ![50000, 256]⟩
abbrev S1x256 : Shape := ⟨2, ![1, 256]⟩

abbrev nBuf : Space → Nat
  | .hbm => 125
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x256, .f32⟩
  | .hbm, ⟨6, _⟩ => ⟨S128x256, .f32⟩
  | .hbm, ⟨7, _⟩ => ⟨S256, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S50000x128, .f32⟩
  | .hbm, ⟨43, _⟩ => ⟨S50000x128, .f32⟩
  | .hbm, ⟨44, _⟩ => ⟨S50000x128, .f32⟩
  | .hbm, ⟨45, _⟩ => ⟨S_, .f32⟩
  | .hbm, ⟨46, _⟩ => ⟨S50000x128, .f32⟩
  | .hbm, ⟨47, _⟩ => ⟨S50000x128, .f32⟩
  | .hbm, ⟨48, _⟩ => ⟨S_, .f32⟩
  | .hbm, ⟨49, _⟩ => ⟨S50000x128, .f32⟩
  | .hbm, ⟨50, _⟩ => ⟨S50000x128, .f32⟩
  | .hbm, ⟨51, _⟩ => ⟨S50000x128, .f32⟩
  | .hbm, ⟨52, _⟩ => ⟨S_, .f32⟩
  | .hbm, ⟨53, _⟩ => ⟨S50000, .f32⟩
  | .hbm, ⟨54, _⟩ => ⟨S50000x1, .f32⟩
  | .hbm, ⟨55, _⟩ => ⟨S50000x1, .f32⟩
  | .hbm, ⟨56, _⟩ => ⟨S_, .f32⟩
  | .hbm, ⟨57, _⟩ => ⟨S50000x1, .f32⟩
  | .hbm, ⟨58, _⟩ => ⟨S50000x1, .f32⟩
  | .hbm, ⟨59, _⟩ => ⟨S50000x128, .f32⟩
  | .hbm, ⟨60, _⟩ => ⟨S50000x128, .f32⟩
  | .hbm, ⟨61, _⟩ => ⟨S_, .i32⟩
  | .hbm, ⟨62, _⟩ => ⟨S800000, .i32⟩
  | .hbm, ⟨63, _⟩ => ⟨S800000, .i1⟩
  | .hbm, ⟨64, _⟩ => ⟨S_, .i32⟩
  | .hbm, ⟨65, _⟩ => ⟨S800000, .i32⟩
  | .hbm, ⟨66, _⟩ => ⟨S800000, .i32⟩
  | .hbm, ⟨67, _⟩ => ⟨S800000, .i32⟩
  | .hbm, ⟨68, _⟩ => ⟨S800000x1, .i32⟩
  | .hbm, ⟨69, _⟩ => ⟨S800000x128, .f32⟩
  | .hbm, ⟨70, _⟩ => ⟨S_, .f32⟩
  | .hbm, ⟨71, _⟩ => ⟨S50000x128, .f32⟩
  | .hbm, ⟨72, _⟩ => ⟨S800000x1, .i32⟩
  | .hbm, ⟨73, _⟩ => ⟨S50000x128, .f32⟩
  | .hbm, ⟨74, _⟩ => ⟨S_, .f32⟩
  | .hbm, ⟨75, _⟩ => ⟨S800000, .f32⟩
  | .hbm, ⟨76, _⟩ => ⟨S_, .f32⟩
  | .hbm, ⟨77, _⟩ => ⟨S50000, .f32⟩
  | .hbm, ⟨78, _⟩ => ⟨S800000x1, .i32⟩
  | .hbm, ⟨79, _⟩ => ⟨S50000, .f32⟩
  | .hbm, ⟨80, _⟩ => ⟨S_, .f32⟩
  | .hbm, ⟨81, _⟩ => ⟨S50000, .f32⟩
  | .hbm, ⟨82, _⟩ => ⟨S50000, .f32⟩
  | .hbm, ⟨83, _⟩ => ⟨S50000x1, .f32⟩
  | .hbm, ⟨84, _⟩ => ⟨S50000x128, .f32⟩
  | .hbm, ⟨85, _⟩ => ⟨S50000x128, .f32⟩
  | .hbm, ⟨86, _⟩ => ⟨S50000x256, .f32⟩
  | .hbm, ⟨87, _⟩ => ⟨S50000x256, .f32⟩
  | .hbm, ⟨88, _⟩ => ⟨S50000x256, .f32⟩
  | .hbm, ⟨89, _⟩ => ⟨S1x256, .f32⟩
  | .hbm, ⟨90, _⟩ => ⟨S50000x256, .f32⟩
  | .hbm, ⟨91, _⟩ => ⟨S50000x256, .f32⟩
  | .hbm, ⟨92, _⟩ => ⟨S50000x256, .f32⟩
  | .hbm, ⟨93, _⟩ => ⟨S50000x256, .f32⟩
  | .hbm, ⟨94, _⟩ => ⟨S_, .f32⟩
  | .hbm, ⟨95, _⟩ => ⟨S50000x256, .f32⟩
  | .hbm, ⟨96, _⟩ => ⟨S50000x256, .f32⟩
  | .hbm, ⟨97, _⟩ => ⟨S_, .f32⟩
  | .hbm, ⟨98, _⟩ => ⟨S50000x256, .f32⟩
  | .hbm, ⟨99, _⟩ => ⟨S50000x256, .f32⟩
  | .hbm, ⟨100, _⟩ => ⟨S50000x256, .f32⟩
  | .hbm, ⟨101, _⟩ => ⟨S_, .f32⟩
  | .hbm, ⟨102, _⟩ => ⟨S50000, .f32⟩
  | .hbm, ⟨103, _⟩ => ⟨S50000x1, .f32⟩
  | .hbm, ⟨104, _⟩ => ⟨S50000x1, .f32⟩
  | .hbm, ⟨105, _⟩ => ⟨S_, .f32⟩
  | .hbm, ⟨106, _⟩ => ⟨S50000x1, .f32⟩
  | .hbm, ⟨107, _⟩ => ⟨S50000x1, .f32⟩
  | .hbm, ⟨108, _⟩ => ⟨S50000x256, .f32⟩
  | .hbm, ⟨109, _⟩ => ⟨S50000x256, .f32⟩
  | .hbm, ⟨110, _⟩ => ⟨S_, .f32⟩
  | .hbm, ⟨111, _⟩ => ⟨S50000, .f32⟩
  | .hbm, ⟨112, _⟩ => ⟨S_, .f32⟩
  | .hbm, ⟨113, _⟩ => ⟨S50000, .f32⟩
  | .hbm, ⟨114, _⟩ => ⟨S50000, .f32⟩
  | .hbm, ⟨115, _⟩ => ⟨S50000x1, .f32⟩
  | .hbm, ⟨116, _⟩ => ⟨S50000x256, .f32⟩
  | .hbm, ⟨117, _⟩ => ⟨S50000x256, .f32⟩
  | .hbm, ⟨118, _⟩ => ⟨S50000x256, .f32⟩
  | .hbm, ⟨119, _⟩ => ⟨S_, .f32⟩
  | .hbm, ⟨120, _⟩ => ⟨S50000, .f32⟩
  | .hbm, ⟨121, _⟩ => ⟨S50000x1, .f32⟩
  | .hbm, ⟨122, _⟩ => ⟨S50000x1, .f32⟩
  | .hbm, ⟨123, _⟩ => ⟨S50000x256, .f32⟩
  | .hbm, ⟨124, _⟩ => ⟨S50000x256, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_c_8 : Ref sig .tc := ⟨.hbm, 61, rfl⟩
abbrev main_v43 : Ref sig .tc := ⟨.hbm, 62, rfl⟩
abbrev main_v44 : Ref sig .tc := ⟨.hbm, 63, rfl⟩
abbrev main_c_9 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_11 : Ref sig .tc := ⟨.hbm, 74, rfl⟩
abbrev main_v53 : Ref sig .tc := ⟨.hbm, 75, rfl⟩
abbrev main_cst_12 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_13 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_14 : Ref sig .tc := ⟨.hbm, 94, rfl⟩
abbrev main_v70 : Ref sig .tc := ⟨.hbm, 95, rfl⟩
abbrev main_v71 : Ref sig .tc := ⟨.hbm, 96, rfl⟩
abbrev main_cst_15 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_16 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_17 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_call0_cst : Ref sig .tc := ⟨.hbm, 110, rfl⟩
abbrev main_call0_v0 : Ref sig .tc := ⟨.hbm, 111, rfl⟩
abbrev main_call0_cst_0 : Ref sig .tc := ⟨.hbm, 112, rfl⟩
abbrev main_call0_v1 : Ref sig .tc := ⟨.hbm, 113, rfl⟩
abbrev main_call0_v2 : Ref sig .tc := ⟨.hbm, 114, rfl⟩
abbrev main_call0_v3 : Ref sig .tc := ⟨.hbm, 115, rfl⟩
abbrev main_call0_v4 : Ref sig .tc := ⟨.hbm, 116, rfl⟩
abbrev main_call0_v5 : Ref sig .tc := ⟨.hbm, 117, rfl⟩
abbrev main_call0_v6 : Ref sig .tc := ⟨.hbm, 118, rfl⟩
abbrev main_call0_cst_1 : Ref sig .tc := ⟨.hbm, 119, rfl⟩
abbrev main_call0_v7 : Ref sig .tc := ⟨.hbm, 120, rfl⟩
abbrev main_call0_v8 : Ref sig .tc := ⟨.hbm, 121, rfl⟩
abbrev main_call0_v9 : Ref sig .tc := ⟨.hbm, 122, rfl⟩
abbrev main_call0_v10 : Ref sig .tc := ⟨.hbm, 123, rfl⟩
abbrev main_v82 : Ref sig .tc := ⟨.hbm, 124, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S_S50000x1 : S_.BroadcastsInDim S50000x1 (![] : Fin 0 → Fin S50000x1.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  reducesTo_S50000x256_S50000_d1 : S50000x256.ReducesTo [1] S50000
  bcast_S50000x1_S50000x256_0_1 : S50000x1.BroadcastsInDim S50000x256 (![0, 1] : Fin 2 → Fin S50000x256.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x256_S50000x256_1_0_0_1_n_n_wf : DotDims.WF S50000x128 S128x256 S50000x256 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf

class Facts : Prop extends Facts₀ where

variable [Facts]
-- ==== Proof.Rows.lean ====
/-
  One GraphSAGE layer followed by a row normalisation, written for ONE node (one row), over the extended reals.

  For a node with aggregated neighbour features `a` and own features `x` (both of length `D`), weights `wl`, `wr`
  (`D × N`) and a bias `b` (length `N`):
    * `lin c  = (Σ_k a k · wl k c) + (Σ_k x k · wr k c) + b c`      the two linear maps, summed, plus the bias;
    * `act c  = 1 / (1 + e^(-lin c))`                              the logistic function, entry by entry;
    * `unit s c = s c / max (√(Σ_j s j · s j)) ε`                  the row divided by its clamped Euclidean norm;
    * `lsm y c  = (y c − M) − log (Σ_j e^(y j − M))`, `M = max_j y j`  the log-softmax of a row.
  An output row depends on the SAME row of the two feature matrices and on nothing else of them: that is why a
  computation done 2000 rows at a time and one done on all 50000 rows at once agree (`layerAt_congr`).
  The array forms `layerArr` / `lsmArr` read a row function at the two coordinates of a rank-2 index.
-/
import Idealize.ShloMosaic.PureOps.Ideal
import Idealize.ShloMosaic.Lib.ValueIdx
import Mathlib.Data.Finset.Fold

noncomputable section

namespace Cert.Sage

open Idealize.ShloMosaic Idealize.ShloMosaic.ValueIdx
open scoped BigOperators

/-- The clamp of the norm: the f32 word of `1e-12`, the same word in both programs, never evaluated. -/
abbrev eps : EReal := Ideal.ofBits .f32 0x2B8CBCCC#32
/-- The value a row maximum starts from: the f32 word of `-∞`. -/
abbrev negInf : EReal := Ideal.ofBits .f32 0xFF800000#32

/-- Column `c` of the pre-activation of one node. -/
def lin {D N : ℕ} (a x : Fin D → EReal) (wl wr : Fin D → Fin N → EReal) (b : Fin N → EReal) (c : Fin N) : EReal :=
  (∑ k : Fin D, a k * wl k c) + (∑ k : Fin D, x k * wr k c) + b c

/-- The logistic function of the pre-activation. -/
def act {D N : ℕ} (a x : Fin D → EReal) (wl wr : Fin D → Fin N → EReal) (b : Fin N → EReal) (c : Fin N) : EReal :=
  Ideal.logistic (lin a x wl wr b c)

/-- A row divided by its Euclidean norm, the norm clamped below by `eps`. -/
def unit {N : ℕ} (s : Fin N → EReal) (c : Fin N) : EReal :=
  Ideal.div (s c) (max (Ideal.sqrt (∑ j : Fin N, s j * s j)) eps)

/-- The maximum of a row, from `-∞`. -/
def rowMax {N : ℕ} (y : Fin N → EReal) : EReal := (Finset.univ : Finset (Fin N)).fold max negInf y

/-- The log-softmax of a row. -/
def lsm {N : ℕ} (y : Fin N → EReal) (c : Fin N) : EReal :=
  (y c - rowMax y) - Ideal.log (∑ j : Fin N, Ideal.exp (y j - rowMax y))

/-- Row `p` of one layer: the rows `p` of `A` and `X` through `lin`, `act`, `unit`. -/
def layerAt {R D N : ℕ} (A X : (⟨2, ![R, D]⟩ : Shape).Idx → EReal) (Wl Wr : (⟨2, ![D, N]⟩ : Shape).Idx → EReal)
    (b : Fin N → EReal) (p : Fin R) : Fin N → EReal :=
  unit (act (fun k => A (ix2 p k)) (fun k => X (ix2 p k)) (fun k c => Wl (ix2 k c)) (fun k c => Wr (ix2 k c)) b)

/-- One layer on every row. -/
def layerArr {R D N : ℕ} (A X : (⟨2, ![R, D]⟩ : Shape).Idx → EReal) (Wl Wr : (⟨2, ![D, N]⟩ : Shape).Idx → EReal)
    (b : Fin N → EReal) : (⟨2, ![R, N]⟩ : Shape).Idx → EReal :=
  fun i => layerAt A X Wl Wr b (i 0) (i 1)

/-- The log-softmax of every row. -/
def lsmArr {R N : ℕ} (Y : (⟨2, ![R, N]⟩ : Shape).Idx → EReal) : (⟨2, ![R, N]⟩ : Shape).Idx → EReal :=
  fun i => lsm (fun j => Y (ix2 (i 0) j)) (i 1)

theorem layerArr_ix2 {R D N : ℕ} (A X : (⟨2, ![R, D]⟩ : Shape).Idx → EReal) (Wl Wr : (⟨2, ![D, N]⟩ : Shape).Idx → EReal)
    (b : Fin N → EReal) (p : Fin R) (q : Fin N) : layerArr A X Wl Wr b (ix2 p q) = layerAt A X Wl Wr b p q := rfl

theorem lsmArr_ix2 {R N : ℕ} (Y : (⟨2, ![R, N]⟩ : Shape).Idx → EReal) (p : Fin R) (q : Fin N) :
    lsmArr Y (ix2 p q) = lsm (fun j => Y (ix2 p j)) q := rfl

/-- A row of a layer depends only on the same row of the two feature matrices: two pairs of matrices (of any
    heights) that agree on row `p` resp. `p'` give the same output row. -/
theorem layerAt_congr {R R' D N : ℕ} (A X : (⟨2, ![R, D]⟩ : Shape).Idx → EReal) (A' X' : (⟨2, ![R', D]⟩ : Shape).Idx → EReal)
    (Wl Wr Wl' Wr' : (⟨2, ![D, N]⟩ : Shape).Idx → EReal) (b b' : Fin N → EReal) (p : Fin R) (p' : Fin R')
    (hA : ∀ k, A (ix2 p k) = A' (ix2 p' k)) (hX : ∀ k, X (ix2 p k) = X' (ix2 p' k))
    (hl : ∀ k c, Wl (ix2 k c) = Wl' (ix2 k c)) (hr : ∀ k c, Wr (ix2 k c) = Wr' (ix2 k c)) (hb : ∀ c, b c = b' c) :
    layerAt A X Wl Wr b p = layerAt A' X' Wl' Wr' b' p' := by
  unfold layerAt
  have e1 : (fun k => A (ix2 p k)) = fun k => A' (ix2 p' k) := funext hA
  have e2 : (fun k => X (ix2 p k)) = fun k => X' (ix2 p' k) := funext hX
  have e3 : (fun k c => Wl (ix2 k c)) = fun k c => Wl' (ix2 k c) := funext fun k => funext fun c => hl k c
  have e4 : (fun k c => Wr (ix2 k c)) = fun k c => Wr' (ix2 k c) := funext fun k => funext fun c => hr k c
  have e5 : b = b' := funext hb
  rw [e1, e2, e3, e4, e5]

/-- Folding `max` from `v` never goes below `v`: taking the maximum with `v` once more changes nothing. -/
theorem max_fold_max {N : ℕ} (v : EReal) (y : Fin N → EReal) :
    max v ((Finset.univ : Finset (Fin N)).fold max v y) = (Finset.univ : Finset (Fin N)).fold max v y :=
  max_eq_right ((Finset.le_fold_max v).mpr (Or.inl le_rfl))

end Cert.Sage

end
-- ==== Proof.LibColumn.lean ====
/-
  A vector kept as a COLUMN: what `jnp.sum(..., axis=-1, keepdims=True)` leaves in a kernel body is a length-`a`
  vector cast to the one-column matrix `[a, 1]` and then broadcast across `b` columns to `[a, b]`. Read at an entry
  `(p, c)`, the cast forgets the unit coordinate and the broadcast forgets the column: both give the vector at `p`.
  Stated for any extents and any element type; nothing here mentions a program.
-/
import Idealize.ShloMosaic.Lib.Pipeline.Value
import Idealize.ShloMosaic.Lib.ValueIdx

namespace Cert.LibColumn

open Idealize.ShloMosaic Idealize.ShloMosaic.ValueIdx

variable {α : Type}

/-- A length-`a` vector cast to the column `[a, 1]` reads, at `(p, u)`, the vector at `p`: row-major position
    `p · 1 + u` with `u = 0` is position `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast across `b` columns reads, at `(p, c)`, the column's entry in row `p`: the row
    coordinate is kept (or is `0` already when `a = 1`), the unit axis reads `0`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector laid down the rows of an `[a, b]` matrix, through its column cast, reads the
    vector at the row. -/
theorem broadcastTo_column_apply {a b : ℕ} (x : (⟨1, ![a]⟩ : Shape).Idx → α)
    (h1 : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ x h1) hb (ix2 p c) = x (ix1 p) :=
  (broadcastTo_a1_ab_apply _ hb p c).trans (shapeCast_a_a1_apply x h1 p 0)

end Cert.LibColumn
-- ==== Proof.KernelBody.lean ====
/-
  The two kernel bodies, read at one entry of the block they store.
-/
import proofs.«170629_j9706626089388_1_alg».proof.Proof.Gen.KernelIdeal.Skeleton
import proofs.«170629_j9706626089388_1_alg».proof.Proof.Rows
import proofs.«170629_j9706626089388_1_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Idealize.ShloMosaic Idealize.ShloMosaic.ValueIdx Cert.KernelIdeal Cert.KernelIdeal.Gen Cert.Sage

open scoped BigOperators

/-! ### The contraction `[2000,128] × [128,128]` -/

theorem lhsA_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhsA_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhsA_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhsA_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A product into the zero accumulator, at `(p, q)`: the sum over `k` of row `p` of the left factor times column `q` of the right. -/
theorem mmA_apply (A : FVec Ideal S2000x128 .bf16) (W : FVec Ideal S128x128 .bf16) (p : Fin 2000) (q : Fin 128) :
    matmul dot_S2000x128_S128x128_S2000x128_1_0_0_1_n_n none A W (constant (F := Ideal) S2000x128 .f32 0x00000000#32) (ix2 p q)
      = ∑ k : Fin 128, A (ix2 p k) * W (ix2 k q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhsA_0 _ _
    | ⟨1, _⟩ => exact (lhsA_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhsA_0 _ _).trans hk
    | ⟨1, _⟩ => exact rhsA_1 _ _)
  rw [el, er]

/-! ### The contraction `[2000,128] × [128,256]` -/

theorem lhsB_0 (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem lhsB_1 (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
theorem rhsB_0 (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
theorem rhsB_1 (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- A product into the zero accumulator, at `(p, q)`: the sum over `k` of row `p` of the left factor times column `q` of the right. -/
theorem mmB_apply (A : FVec Ideal S2000x128 .bf16) (W : FVec Ideal S128x256 .bf16) (p : Fin 2000) (q : Fin 256) :
    matmul dot_S2000x128_S128x256_S2000x256_1_0_0_1_n_n none A W (constant (F := Ideal) S2000x256 .f32 0x00000000#32) (ix2 p q)
      = ∑ k : Fin 128, A (ix2 p k) * W (ix2 k q) := by
  simp only [matmul]
  rw [Ideal.matmul_constant_zero_apply, ← Equiv.sum_comp (contrEquiv1 dot_S2000x128_S128x256_S2000x256_1_0_0_1_n_n 128 rfl rfl).symm]
  refine Finset.sum_congr rfl fun k _ => ?_
  have hk := contrEquiv1_symm_val dot_S2000x128_S128x256_S2000x256_1_0_0_1_n_n 128 rfl rfl k
  have el : dot_S2000x128_S128x256_S2000x256_1_0_0_1_n_n.lhsIdx (ix2 p q) ((contrEquiv1 dot_S2000x128_S128x256_S2000x256_1_0_0_1_n_n 128 rfl rfl).symm k) = ix2 p k := funext fun a => Fin.ext (by
    match a with
    | ⟨0, _⟩ => exact lhsB_0 _ _
    | ⟨1, _⟩ => exact (lhsB_1 _ _).trans hk)
  have er : dot_S2000x128_S128x256_S2000x256_1_0_0_1_n_n.rhsIdx (ix2 p q) ((contrEquiv1 dot_S2000x128_S128x256_S2000x256_1_0_0_1_n_n 128 rfl rfl).symm k) = ix2 k q := funext fun a => Fin.ext (by
    match a with
    | ⟨0, _⟩ => exact (rhsB_0 _ _).trans hk
    | ⟨1, _⟩ => exact rhsB_1 _ _)
  rw [el, er]

/-! ### Sums and maxima along a row -/

/-- The sum of the 128 lanes of row `p`. -/
theorem sumA_apply (v : FVec Ideal S2000x128 .f32) (p : Fin 2000) :
    multiReduction .add [1] S2000 v 0x00000000#32 reduces_S2000x128_S2000 (.inl rfl) rfl (ix1 p) = ∑ k : Fin 128, v (ix2 p k) := by
  refine (Ideal.multiReduction_add_single v 0x00000000#32 reduces_S2000x128_S2000 (.inl rfl) rfl (ix1 p)).trans ?_
  refine Finset.sum_congr rfl fun k _ => congrArg v (funext fun a => Fin.ext ?_)
  match a with
  | ⟨0, _⟩ => rfl
  | ⟨1, _⟩ => rfl

/-- The sum of the 256 lanes of row `p`. -/
theorem sumB_apply (v : FVec Ideal S2000x256 .f32) (p : Fin 2000) :
    multiReduction .add [1] S2000 v 0x00000000#32 reduces_S2000x256_S2000 (.inl rfl) rfl (ix1 p) = ∑ k : Fin 256, v (ix2 p k) := by
  refine (Ideal.multiReduction_add_single v 0x00000000#32 reduces_S2000x256_S2000 (.inl rfl) rfl (ix1 p)).trans ?_
  refine Finset.sum_congr rfl fun k _ => congrArg v (funext fun a => Fin.ext ?_)
  match a with
  | ⟨0, _⟩ => rfl
  | ⟨1, _⟩ => rfl

/-- The maximum of the 256 lanes of row `p`, from `-∞`. -/
theorem maxB_apply (v : FVec Ideal S2000x256 .f32) (p : Fin 2000) :
    multiReduction .maximumf [1] S2000 v 0xFF800000#32 reduces_S2000x256_S2000 (.inl rfl) rfl (ix1 p) = rowMax (fun k : Fin 256 => v (ix2 p k)) := by
  refine (Ideal.multiReduction_maximumf_single v 0xFF800000#32 reduces_S2000x256_S2000 (.inl rfl) rfl (ix1 p)).trans ?_
  unfold rowMax
  refine congrArg (fun f : Fin 256 → EReal => (Finset.univ : Finset (Fin 256)).fold max negInf f) (funext fun k => congrArg v (funext fun a => Fin.ext ?_))
  match a with
  | ⟨0, _⟩ => rfl
  | ⟨1, _⟩ => rfl

/-! ### The pre-activation, the normalised row, the log-softmax -/

/-- The two products, summed, plus the broadcast bias row, at `(p, q)`: `lin` of row `p` (128 columns). -/
theorem linA_apply (A X : FVec Ideal S2000x128 .f32) (Wl Wr : FVec Ideal S128x128 .f32) (b : FVec Ideal S1x128 .f32)
    (p : Fin 2000) (q : Fin 128) :
    addf (addf
        (matmul dot_S2000x128_S128x128_S2000x128_1_0_0_1_n_n none (truncf .bf16 A bitsLt_bf16_f32) (truncf .bf16 Wl bitsLt_bf16_f32)
          (constant (F := Ideal) S2000x128 .f32 0x00000000#32))
        (matmul dot_S2000x128_S128x128_S2000x128_1_0_0_1_n_n none (truncf .bf16 X bitsLt_bf16_f32) (truncf .bf16 Wr bitsLt_bf16_f32)
          (constant (F := Ideal) S2000x128 .f32 0x00000000#32)))
      (broadcastTo S2000x128 b broadcasts_S1x128_S2000x128) (ix2 p q)
    = lin (fun k => A (ix2 p k)) (fun k => X (ix2 p k)) (fun k c => Wl (ix2 k c)) (fun k c => Wr (ix2 k c))
        (fun c => b (ix2 (0 : Fin 1) c)) q := by
  rw [addf_apply, addf_apply, mmA_apply, mmA_apply, broadcastTo_1b_ab_apply]
  rfl

/-- The same with 256 columns. -/
theorem linB_apply (A X : FVec Ideal S2000x128 .f32) (Wl Wr : FVec Ideal S128x256 .f32) (b : FVec Ideal S1x256 .f32)
    (p : Fin 2000) (q : Fin 256) :
    addf (addf
        (matmul dot_S2000x128_S128x256_S2000x256_1_0_0_1_n_n none (truncf .bf16 A bitsLt_bf16_f32) (truncf .bf16 Wl bitsLt_bf16_f32)
          (constant (F := Ideal) S2000x256 .f32 0x00000000#32))
        (matmul dot_S2000x128_S128x256_S2000x256_1_0_0_1_n_n none (truncf .bf16 X bitsLt_bf16_f32) (truncf .bf16 Wr bitsLt_bf16_f32)
          (constant (F := Ideal) S2000x256 .f32 0x00000000#32)))
      (broadcastTo S2000x256 b broadcasts_S1x256_S2000x256) (ix2 p q)
    = lin (fun k => A (ix2 p k)) (fun k => X (ix2 p k)) (fun k c => Wl (ix2 k c)) (fun k c => Wr (ix2 k c))
        (fun c => b (ix2 (0 : Fin 1) c)) q := by
  rw [addf_apply, addf_apply, mmB_apply, mmB_apply, broadcastTo_1b_ab_apply]
  rfl

/-- A block divided, row by row, by the clamped norm of the row kept as a column, at `(p, q)`: `unit` of row `p` (128 columns). -/
theorem unitA_apply (s : FVec Ideal S2000x128 .f32) (p : Fin 2000) (q : Fin 128) :
    divf s (broadcastTo S2000x128
        (maximumf
          (sqrt (shapeCast S2000x1 (multiReduction .add [1] S2000 (mulf s s) 0x00000000#32 reduces_S2000x128_S2000 (.inl rfl) rfl)
            shapeCasts_S2000_S2000x1))
          (broadcast S2000x1 (Scalar.ofBits (F := Ideal) .f32 0x2B8CBCCC#32)))
        broadcasts_S2000x1_S2000x128) (ix2 p q)
    = unit (fun c => s (ix2 p c)) q := by
  rw [divf_apply, Cert.LibColumn.broadcastTo_a1_ab_apply, maximumf_apply, broadcast_apply]
  show Ideal.div (s (ix2 p q)) (max (Ideal.sqrt (shapeCast S2000x1
      (multiReduction .add [1] S2000 (mulf s s) 0x00000000#32 reduces_S2000x128_S2000 (.inl rfl) rfl) shapeCasts_S2000_S2000x1
      (ix2 p (0 : Fin 1)))) eps) = _
  rw [Cert.LibColumn.shapeCast_a_a1_apply, sumA_apply]
  rfl

/-- The same with 256 columns. -/
theorem unitB_apply (s : FVec Ideal S2000x256 .f32) (p : Fin 2000) (q : Fin 256) :
    divf s (broadcastTo S2000x256
        (maximumf
          (sqrt (shapeCast S2000x1 (multiReduction .add [1] S2000 (mulf s s) 0x00000000#32 reduces_S2000x256_S2000 (.inl rfl) rfl)
            shapeCasts_S2000_S2000x1))
          (broadcast S2000x1 (Scalar.ofBits (F := Ideal) .f32 0x2B8CBCCC#32)))
        broadcasts_S2000x1_S2000x256) (ix2 p q)
    = unit (fun c => s (ix2 p c)) q := by
  rw [divf_apply, Cert.LibColumn.broadcastTo_a1_ab_apply, maximumf_apply, broadcast_apply]
  show Ideal.div (s (ix2 p q)) (max (Ideal.sqrt (shapeCast S2000x1
      (multiReduction .add [1] S2000 (mulf s s) 0x00000000#32 reduces_S2000x256_S2000 (.inl rfl) rfl) shapeCasts_S2000_S2000x1
      (ix2 p (0 : Fin 1)))) eps) = _
  rw [Cert.LibColumn.shapeCast_a_a1_apply, sumB_apply]
  rfl

/-- A block minus its row maxima kept as a column, at `(p, q)`. -/
theorem shiftB_apply (y : FVec Ideal S2000x256 .f32) (p : Fin 2000) (q : Fin 256) :
    subf y (broadcastTo S2000x256
        (shapeCast S2000x1 (multiReduction .maximumf [1] S2000 y 0xFF800000#32 reduces_S2000x256_S2000 (.inl rfl) rfl)
          shapeCasts_S2000_S2000x1)
        broadcasts_S2000x1_S2000x256) (ix2 p q)
    = y (ix2 p q) - rowMax (fun c : Fin 256 => y (ix2 p c)) := by
  rw [subf_apply, Cert.LibColumn.broadcastTo_column_apply, maxB_apply]

/-- A shifted block minus the logarithm of the row sums of its exponentials kept as a column, at `(p, q)`. -/
theorem lseB_apply (z : FVec Ideal S2000x256 .f32) (p : Fin 2000) (q : Fin 256) :
    subf z (broadcastTo S2000x256
        (log (shapeCast S2000x1 (multiReduction .add [1] S2000 (exp z) 0x00000000#32 reduces_S2000x256_S2000 (.inl rfl) rfl)
          shapeCasts_S2000_S2000x1))
        broadcasts_S2000x1_S2000x256) (ix2 p q)
    = z (ix2 p q) - Ideal.log (∑ j : Fin 256, Ideal.exp (z (ix2 p j))) := by
  rw [subf_apply, Cert.LibColumn.broadcastTo_a1_ab_apply]
  show z (ix2 p q) - Ideal.log (shapeCast S2000x1
      (multiReduction .add [1] S2000 (exp z) 0x00000000#32 reduces_S2000x256_S2000 (.inl rfl) rfl) shapeCasts_S2000_S2000x1
      (ix2 p (0 : Fin 1))) = _
  rw [Cert.LibColumn.shapeCast_a_a1_apply, sumB_apply]
  rfl

/-- The two together: the log-softmax of row `p`. -/
theorem lsmB_apply (y : FVec Ideal S2000x256 .f32) (p : Fin 2000) (q : Fin 256) :
    subf
      (subf y (broadcastTo S2000x256
        (shapeCast S2000x1 (multiReduction .maximumf [1] S2000 y 0xFF800000#32 reduces_S2000x256_S2000 (.inl rfl) rfl)
          shapeCasts_S2000_S2000x1)
        broadcasts_S2000x1_S2000x256))
      (broadcastTo S2000x256
        (log (shapeCast S2000x1 (multiReduction .add [1] S2000
          (exp (subf y (broadcastTo S2000x256
            (shapeCast S2000x1 (multiReduction .maximumf [1] S2000 y 0xFF800000#32 reduces_S2000x256_S2000 (.inl rfl) rfl)
              shapeCasts_S2000_S2000x1)
            broadcasts_S2000x1_S2000x256)))
          0x00000000#32 reduces_S2000x256_S2000 (.inl rfl) rfl)
          shapeCasts_S2000_S2000x1))
        broadcasts_S2000x1_S2000x256) (ix2 p q)
    = lsm (fun c => y (ix2 p c)) q := by
  refine (lseB_apply _ p q).trans ?_
  exact congrArg₂ (fun a t => a - Ideal.log t) (shiftB_apply y p q)
    (Finset.sum_congr rfl fun j _ => congrArg Ideal.exp (shiftB_apply y p j))

theorem pay_stage1 (X0 X1 : FVec Ideal S2000x128 .f32) (X2 X3 : FVec Ideal S128x128 .f32) (X4 : FVec Ideal S1x128 .f32)
    (p : Fin 2000) (q : Fin 128) :
    k0_pay1 (F := Ideal) X0 X1 X2 X3 X4 (ix2 p q) = layerAt X0 X1 X2 X3 (fun c => X4 (ix2 (0 : Fin 1) c)) p q := by
  unfold k0_pay1
  simp only [shapeCast_self]
  refine (unitA_apply _ p q).trans ?_
  unfold layerAt
  refine congrFun (congrArg unit (funext fun c => ?_)) q
  show Ideal.logistic _ = Ideal.logistic _
  exact congrArg Ideal.logistic (linA_apply X0 X1 X2 X3 X4 p c)

theorem pay_stage2 (X0 X1 : FVec Ideal S2000x128 .f32) (X2 X3 : FVec Ideal S128x256 .f32) (X4 : FVec Ideal S1x256 .f32)
    (p : Fin 2000) (q : Fin 256) :
    k1_pay1 (F := Ideal) X0 X1 X2 X3 X4 (ix2 p q) = lsm (layerAt X0 X1 X2 X3 (fun c => X4 (ix2 (0 : Fin 1) c)) p) q := by
  unfold k1_pay1
  simp only [shapeCast_self]
  refine (lsmB_apply _ p q).trans ?_
  refine congrFun (congrArg lsm (funext fun c => ?_)) q
  refine (unitB_apply _ p c).trans ?_
  unfold layerAt
  refine congrFun (congrArg unit (funext fun c' => ?_)) c
  show Ideal.logistic _ = Ideal.logistic _
  exact congrArg Ideal.logistic (linB_apply X0 X1 X2 X3 X4 p c')

end Cert.KernelIdeal.Body

end
-- ==== Proof.Blocks0.lean ====
/-
  Region 0 of the program: the array its output window ends holding, as one function of the arrays the region finds.

  The grid has 25 points; point `t` stages rows `2000·t … 2000·t + 1999` of the two feature matrices, the two weight
  matrices whole and the bias row, and writes back rows `2000·t … 2000·t + 1999` of the output. An output row is a function
  of the same row of the two feature matrices (`Cert.Sage.layerAt_congr`), so what point `t` writes back is its block of
  the whole-array function, and the 25 blocks tile the 50000 rows.
-/
import proofs.«170629_j9706626089388_1_alg».proof.Proof.Gen.KernelIdeal.Frame
import proofs.«170629_j9706626089388_1_alg».proof.Proof.KernelBody
import proofs.«170629_j9706626089388_1_alg».proof.Proof.Rows
import Idealize.ShloMosaic.Lib.Pipeline.Value
import Idealize.ShloMosaic.Lib.ValueIdx

set_option maxRecDepth 16384

noncomputable section

namespace Cert.KernelIdeal.Blocks0

open Idealize.ShloMosaic Idealize.ShloMosaic.TcCoe Idealize.ShloMosaic.ValueIdx Idealize.SL.Sem
open Cert.KernelIdeal Cert.KernelIdeal.Gen Cert.Sage
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The arrays the region reads, as it finds them, each at its literal type. -/
abbrev aggA (c : Dev nD) : FVec Ideal S50000x128 .f32 := V c main_v22
abbrev featA (c : Dev nD) : FVec Ideal S50000x128 .f32 := V c main_arg0
abbrev wlA (c : Dev nD) : FVec Ideal S128x128 .f32 := V c main_arg2
abbrev wrA (c : Dev nD) : FVec Ideal S128x128 .f32 := V c main_arg3
abbrev biasA (c : Dev nD) : FVec Ideal S1x128 .f32 := V c main_v23

/-- The blocks point `t` stages, each at its literal type. -/
abbrev aggB (c : Dev nD) (t : Fin cfg0.N) : FVec Ideal S2000x128 .f32 := iblk0 V c 0 t
abbrev featB (c : Dev nD) (t : Fin cfg0.N) : FVec Ideal S2000x128 .f32 := iblk0 V c 1 t
abbrev wlB (c : Dev nD) (t : Fin cfg0.N) : FVec Ideal S128x128 .f32 := iblk0 V c 2 t
abbrev wrB (c : Dev nD) (t : Fin cfg0.N) : FVec Ideal S128x128 .f32 := iblk0 V c 3 t
abbrev biasB (c : Dev nD) (t : Fin cfg0.N) : FVec Ideal S1x128 .f32 := iblk0 V c 4 t

/-- What the output array ends holding: one layer on every row. -/
def G (c : Dev nD) : FVec Ideal S50000x128 .f32 :=
  layerArr (aggA V c) (featA V c) (wlA V c) (wrA V c) (fun q => biasA V c (ix2 (0 : Fin 1) q))

/-- The printed index maps over the grid: the row-blocked windows sit at block `t` of the rows, the whole-array windows at
    block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of the block at point `t` is row `2000·t + p` of the array. -/
def rowOf (t : Fin cfg0.N) (p : Fin 2000) : Fin 50000 := ⟨t.val * 2000 + p.val, by
  have ht : t.val < 25 := (show t.val < grid0.N from t.isLt).trans_eq N_0
  have := p.isLt; omega⟩

theorem aggB_apply (c : Dev nD) (t : Fin cfg0.N) (p : Fin 2000) (k : Fin 128) :
    aggB V c t (ix2 p k) = aggA V c (ix2 (rowOf t p) k) := by
  obtain ⟨e0, e1, -⟩ := idx_facts t
  show aggA V c (((cfg0.win 0).blk t).view.emb (ix2 p k)) = aggA V c (ix2 (rowOf t p) k)
  refine congrArg (aggA V c) (funext fun a => Fin.ext ?_)
  match a with
  | ⟨0, _⟩ => show win0_0.index t (0 : Fin 2) * 2000 + 1 * p.val = t.val * 2000 + p.val; omega
  | ⟨1, _⟩ => show win0_0.index t (1 : Fin 2) * 128 + 1 * k.val = k.val; omega

theorem featB_apply (c : Dev nD) (t : Fin cfg0.N) (p : Fin 2000) (k : Fin 128) :
    featB V c t (ix2 p k) = featA V c (ix2 (rowOf t p) k) := by
  obtain ⟨-, -, e0, e1, -⟩ := idx_facts t
  show featA V c (((cfg0.win 1).blk t).view.emb (ix2 p k)) = featA V c (ix2 (rowOf t p) k)
  refine congrArg (featA V c) (funext fun a => Fin.ext ?_)
  match a with
  | ⟨0, _⟩ => show win0_1.index t (0 : Fin 2) * 2000 + 1 * p.val = t.val * 2000 + p.val; omega
  | ⟨1, _⟩ => show win0_1.index t (1 : Fin 2) * 128 + 1 * k.val = k.val; omega

theorem wlB_apply (c : Dev nD) (t : Fin cfg0.N) (k : Fin 128) (q : Fin 128) :
    wlB V c t (ix2 k q) = wlA V c (ix2 k q) := by
  obtain ⟨-, -, -, -, e0, e1, -⟩ := idx_facts t
  show wlA V c (((cfg0.win 2).blk t).view.emb (ix2 k q)) = wlA V c (ix2 k q)
  refine congrArg (wlA V c) (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

theorem wrB_apply (c : Dev nD) (t : Fin cfg0.N) (k : Fin 128) (q : Fin 128) :
    wrB V c t (ix2 k q) = wrA V c (ix2 k q) := by
  obtain ⟨-, -, -, -, -, -, e0, e1, -⟩ := idx_facts t
  show wrA V c (((cfg0.win 3).blk t).view.emb (ix2 k q)) = wrA V c (ix2 k q)
  refine congrArg (wrA V c) (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

theorem biasB_apply (c : Dev nD) (t : Fin cfg0.N) (q : Fin 128) :
    biasB V c t (ix2 (0 : Fin 1) q) = biasA V c (ix2 (0 : Fin 1) q) := by
  obtain ⟨-, -, -, -, -, -, -, -, e0, e1, -⟩ := idx_facts t
  show biasA V c (((cfg0.win 4).blk t).view.emb (ix2 (0 : Fin 1) q)) = biasA V c (ix2 (0 : Fin 1) q)
  refine congrArg (biasA V c) (funext fun a => Fin.ext ?_)
  match a with
  | ⟨0, _⟩ => show win0_4.index t (0 : Fin 2) * 1 + 1 * 0 = 0; omega
  | ⟨1, _⟩ => show win0_4.index t (1 : Fin 2) * 128 + 1 * q.val = q.val; omega

/-- Entry `(p, q)` of the output block at point `t` sits at `(2000·t + p, q)` of the output array. -/
theorem out_emb (t : Fin cfg0.N) (p : Fin 2000) (q : Fin 128) :
    ((cfg0.win 5).blk t).view.emb (ix2 p q) = (ix2 (rowOf t p) q : S50000x128.Idx) := by
  obtain ⟨-, -, -, -, -, -, -, -, -, -, e0, e1⟩ := idx_facts t
  refine funext fun a => Fin.ext ?_
  match a with
  | ⟨0, _⟩ => show win0_5.index t (0 : Fin 2) * 2000 + 1 * p.val = t.val * 2000 + p.val; omega
  | ⟨1, _⟩ => show win0_5.index t (1 : Fin 2) * 128 + 1 * q.val = q.val; omega

/-- The output row the body computes from the staged blocks is the row of the whole-array function. -/
theorem row_eq (c : Dev nD) (t : Fin cfg0.N) (p : Fin 2000) :
    layerAt (aggB V c t) (featB V c t) (wlB V c t) (wrB V c t) (fun q => biasB V c t (ix2 (0 : Fin 1) q)) p
      = layerAt (aggA V c) (featA V c) (wlA V c) (wrA V c) (fun q => biasA V c (ix2 (0 : Fin 1) q)) (rowOf t p) :=
  layerAt_congr _ _ _ _ _ _ _ _ _ _ p (rowOf t p) (aggB_apply V c t p) (featB_apply V c t p)
    (wlB_apply V c t) (wrB_apply V c t) (biasB_apply V c t)

/-- WHAT POINT `t` WRITES BACK is block `t` of `G`. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  show k0_pay1 (F := Ideal) (aggB V c t) (featB V c t) (wlB V c t) (wrB V c t) (biasB V c t) (ix2 p q)
    = G V c (((cfg0.win 5).blk t).view.emb (ix2 p q))
  rw [out_emb t p q]
  refine (Cert.KernelIdeal.Body.pay_stage1 (aggB V c t) (featB V c t) (wlB V c t) (wrB V c t) (biasB V c t) p q).trans ?_
  rw [row_eq V c t p]
  rfl

/-- An index of the output array is in point `t`'s block iff each coordinate is in the block's range on its axis. -/
theorem mem_blk (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v24).slice (win0_5.rect t)).set ↔ _
  rw [View.set_slice_whole, Rect.mem_set_unit]
  exact Iff.rfl

/-- Every row of the output is in the block of the point `row / 2000`. -/
theorem cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 25 := N_0
  refine ⟨⟨(i 0).val / 2000, by rw [hN]; omega⟩, flush0_5 _, ?_⟩
  rw [mem_blk]
  obtain ⟨-, -, -, -, -, -, -, -, -, -, e0, e1⟩ := idx_facts ⟨(i 0).val / 2000, by rw [hN]; omega⟩
  intro a
  match a with
  | ⟨0, _⟩ =>
    show win0_5.index _ (0 : Fin 2) * 2000 ≤ (i 0).val ∧ (i 0).val < win0_5.index _ (0 : Fin 2) * 2000 + 2000
    rw [e0]; show (i 0).val / 2000 * 2000 ≤ (i 0).val ∧ (i 0).val < (i 0).val / 2000 * 2000 + 2000; omega
  | ⟨1, _⟩ =>
    show win0_5.index _ (1 : Fin 2) * 128 ≤ (i 1).val ∧ (i 1).val < win0_5.index _ (1 : Fin 2) * 128 + 128
    rw [e1]; omega

/-- THE OUTPUT ARRAY after the region: `G` of the arrays the region found. -/
theorem final (c : Dev nD) : (dat0 V c).arrAt 5 cfg0.N = G V c :=
  (dat0 V c).arrAt_eq_of_cover 5 (G V c) (fun t _ => flushed_eq V c t) (cover)

end Cert.KernelIdeal.Blocks0

end
-- ==== Proof.Blocks1.lean ====
/-
  Region 1 of the program: the array its output window ends holding, as one function of the arrays the region finds.

  The grid has 25 points; point `t` stages rows `2000·t … 2000·t + 1999` of the two feature matrices, the two weight
  matrices whole and the bias row, and writes back rows `2000·t … 2000·t + 1999` of the output. An output row is a function
  of the same row of the two feature matrices (`Cert.Sage.layerAt_congr`), so what point `t` writes back is its block of
  the whole-array function, and the 25 blocks tile the 50000 rows.
-/
import proofs.«170629_j9706626089388_1_alg».proof.Proof.Gen.KernelIdeal.Frame
import proofs.«170629_j9706626089388_1_alg».proof.Proof.KernelBody
import proofs.«170629_j9706626089388_1_alg».proof.Proof.Rows
import Idealize.ShloMosaic.Lib.Pipeline.Value
import Idealize.ShloMosaic.Lib.ValueIdx

set_option maxRecDepth 16384

noncomputable section

namespace Cert.KernelIdeal.Blocks1

open Idealize.ShloMosaic Idealize.ShloMosaic.TcCoe Idealize.ShloMosaic.ValueIdx Idealize.SL.Sem
open Cert.KernelIdeal Cert.KernelIdeal.Gen Cert.Sage
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The arrays the region reads, as it finds them, each at its literal type. -/
abbrev aggA (c : Dev nD) : FVec Ideal S50000x128 .f32 := V c main_v43
abbrev featA (c : Dev nD) : FVec Ideal S50000x128 .f32 := V c main_v24
abbrev wlA (c : Dev nD) : FVec Ideal S128x256 .f32 := V c main_arg5
abbrev wrA (c : Dev nD) : FVec Ideal S128x256 .f32 := V c main_arg6
abbrev biasA (c : Dev nD) : FVec Ideal S1x256 .f32 := V c main_v44

/-- The blocks point `t` stages, each at its literal type. -/
abbrev aggB (c : Dev nD) (t : Fin cfg1.N) : FVec Ideal S2000x128 .f32 := iblk1 V c 0 t
abbrev featB (c : Dev nD) (t : Fin cfg1.N) : FVec Ideal S2000x128 .f32 := iblk1 V c 1 t
abbrev wlB (c : Dev nD) (t : Fin cfg1.N) : FVec Ideal S128x256 .f32 := iblk1 V c 2 t
abbrev wrB (c : Dev nD) (t : Fin cfg1.N) : FVec Ideal S128x256 .f32 := iblk1 V c 3 t
abbrev biasB (c : Dev nD) (t : Fin cfg1.N) : FVec Ideal S1x256 .f32 := iblk1 V c 4 t

/-- What the output array ends holding: one layer on every row, then the log-softmax of every row. -/
def G (c : Dev nD) : FVec Ideal S50000x256 .f32 :=
  lsmArr (layerArr (aggA V c) (featA V c) (wlA V c) (wrA V c) (fun q => biasA V c (ix2 (0 : Fin 1) q)))

/-- The printed index maps over the grid: the row-blocked windows sit at block `t` of the rows, the whole-array windows at
    block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of the block at point `t` is row `2000·t + p` of the array. -/
def rowOf (t : Fin cfg1.N) (p : Fin 2000) : Fin 50000 := ⟨t.val * 2000 + p.val, by
  have ht : t.val < 25 := (show t.val < grid1.N from t.isLt).trans_eq N_1
  have := p.isLt; omega⟩

theorem aggB_apply (c : Dev nD) (t : Fin cfg1.N) (p : Fin 2000) (k : Fin 128) :
    aggB V c t (ix2 p k) = aggA V c (ix2 (rowOf t p) k) := by
  obtain ⟨e0, e1, -⟩ := idx_facts t
  show aggA V c (((cfg1.win 0).blk t).view.emb (ix2 p k)) = aggA V c (ix2 (rowOf t p) k)
  refine congrArg (aggA V c) (funext fun a => Fin.ext ?_)
  match a with
  | ⟨0, _⟩ => show win1_0.index t (0 : Fin 2) * 2000 + 1 * p.val = t.val * 2000 + p.val; omega
  | ⟨1, _⟩ => show win1_0.index t (1 : Fin 2) * 128 + 1 * k.val = k.val; omega

theorem featB_apply (c : Dev nD) (t : Fin cfg1.N) (p : Fin 2000) (k : Fin 128) :
    featB V c t (ix2 p k) = featA V c (ix2 (rowOf t p) k) := by
  obtain ⟨-, -, e0, e1, -⟩ := idx_facts t
  show featA V c (((cfg1.win 1).blk t).view.emb (ix2 p k)) = featA V c (ix2 (rowOf t p) k)
  refine congrArg (featA V c) (funext fun a => Fin.ext ?_)
  match a with
  | ⟨0, _⟩ => show win1_1.index t (0 : Fin 2) * 2000 + 1 * p.val = t.val * 2000 + p.val; omega
  | ⟨1, _⟩ => show win1_1.index t (1 : Fin 2) * 128 + 1 * k.val = k.val; omega

theorem wlB_apply (c : Dev nD) (t : Fin cfg1.N) (k : Fin 128) (q : Fin 256) :
    wlB V c t (ix2 k q) = wlA V c (ix2 k q) := by
  obtain ⟨-, -, -, -, e0, e1, -⟩ := idx_facts t
  show wlA V c (((cfg1.win 2).blk t).view.emb (ix2 k q)) = wlA V c (ix2 k q)
  refine congrArg (wlA V c) (funext fun a => Fin.ext ?_)
  match a with
  | ⟨0, _⟩ => show win1_2.index t (0 : Fin 2) * 128 + 1 * k.val = k.val; omega
  | ⟨1, _⟩ => show win1_2.index t (1 : Fin 2) * 256 + 1 * q.val = q.val; omega

theorem wrB_apply (c : Dev nD) (t : Fin cfg1.N) (k : Fin 128) (q : Fin 256) :
    wrB V c t (ix2 k q) = wrA V c (ix2 k q) := by
  obtain ⟨-, -, -, -, -, -, e0, e1, -⟩ := idx_facts t
  show wrA V c (((cfg1.win 3).blk t).view.emb (ix2 k q)) = wrA V c (ix2 k q)
  refine congrArg (wrA V c) (funext fun a => Fin.ext ?_)
  match a with
  | ⟨0, _⟩ => show win1_3.index t (0 : Fin 2) * 128 + 1 * k.val = k.val; omega
  | ⟨1, _⟩ => show win1_3.index t (1 : Fin 2) * 256 + 1 * q.val = q.val; omega

theorem biasB_apply (c : Dev nD) (t : Fin cfg1.N) (q : Fin 256) :
    biasB V c t (ix2 (0 : Fin 1) q) = biasA V c (ix2 (0 : Fin 1) q) := by
  obtain ⟨-, -, -, -, -, -, -, -, e0, e1, -⟩ := idx_facts t
  show biasA V c (((cfg1.win 4).blk t).view.emb (ix2 (0 : Fin 1) q)) = biasA V c (ix2 (0 : Fin 1) q)
  refine congrArg (biasA V c) (funext fun a => Fin.ext ?_)
  match a with
  | ⟨0, _⟩ => show win1_4.index t (0 : Fin 2) * 1 + 1 * 0 = 0; omega
  | ⟨1, _⟩ => show win1_4.index t (1 : Fin 2) * 256 + 1 * q.val = q.val; omega

/-- Entry `(p, q)` of the output block at point `t` sits at `(2000·t + p, q)` of the output array. -/
theorem out_emb (t : Fin cfg1.N) (p : Fin 2000) (q : Fin 256) :
    ((cfg1.win 5).blk t).view.emb (ix2 p q) = (ix2 (rowOf t p) q : S50000x256.Idx) := by
  obtain ⟨-, -, -, -, -, -, -, -, -, -, e0, e1⟩ := idx_facts t
  refine funext fun a => Fin.ext ?_
  match a with
  | ⟨0, _⟩ => show win1_5.index t (0 : Fin 2) * 2000 + 1 * p.val = t.val * 2000 + p.val; omega
  | ⟨1, _⟩ => show win1_5.index t (1 : Fin 2) * 256 + 1 * q.val = q.val; omega

/-- The output row the body computes from the staged blocks is the row of the whole-array function. -/
theorem row_eq (c : Dev nD) (t : Fin cfg1.N) (p : Fin 2000) :
    layerAt (aggB V c t) (featB V c t) (wlB V c t) (wrB V c t) (fun q => biasB V c t (ix2 (0 : Fin 1) q)) p
      = layerAt (aggA V c) (featA V c) (wlA V c) (wrA V c) (fun q => biasA V c (ix2 (0 : Fin 1) q)) (rowOf t p) :=
  layerAt_congr _ _ _ _ _ _ _ _ _ _ p (rowOf t p) (aggB_apply V c t p) (featB_apply V c t p)
    (wlB_apply V c t) (wrB_apply V c t) (biasB_apply V c t)

/-- WHAT POINT `t` WRITES BACK is block `t` of `G`. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S2000x128) hz, View.ld_unit_zero (S := S128x256) hz, View.ld_unit_zero (S := S1x256) hz]
  funext j
  obtain ⟨p, q, rfl⟩ : ∃ (p : Fin 2000) (q : Fin 256), j = ix2 p q := ⟨j 0, j 1, eq_ix2 j⟩
  show k1_pay1 (F := Ideal) (aggB V c t) (featB V c t) (wlB V c t) (wrB V c t) (biasB V c t) (ix2 p q)
    = G V c (((cfg1.win 5).blk t).view.emb (ix2 p q))
  rw [out_emb t p q]
  refine (Cert.KernelIdeal.Body.pay_stage2 (aggB V c t) (featB V c t) (wlB V c t) (wrB V c t) (biasB V c t) p q).trans ?_
  rw [row_eq V c t p]
  rfl

/-- An index of the output array is in point `t`'s block iff each coordinate is in the block's range on its axis. -/
theorem mem_blk (t : Fin cfg1.N) (i : S50000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v45).slice (win1_5.rect t)).set ↔ _
  rw [View.set_slice_whole, Rect.mem_set_unit]
  exact Iff.rfl

/-- Every row of the output is in the block of the point `row / 2000`. -/
theorem cover (i : S50000x256.Idx) :
    ∃ t : Fin cfg1.N, (cfg1.win 5).flush t = true ∧ i ∈ ((cfg1.win 5).blk t).view.set := by
  have hi0 : (i 0).val < 50000 := (i 0).isLt
  have hi1 : (i 1).val < 256 := (i 1).isLt
  have hN : cfg1.N = 25 := N_1
  refine ⟨⟨(i 0).val / 2000, by rw [hN]; omega⟩, flush1_5 _, ?_⟩
  rw [mem_blk]
  obtain ⟨-, -, -, -, -, -, -, -, -, -, e0, e1⟩ := idx_facts ⟨(i 0).val / 2000, by rw [hN]; omega⟩
  intro a
  match a with
  | ⟨0, _⟩ =>
    show win1_5.index _ (0 : Fin 2) * 2000 ≤ (i 0).val ∧ (i 0).val < win1_5.index _ (0 : Fin 2) * 2000 + 2000
    rw [e0]; show (i 0).val / 2000 * 2000 ≤ (i 0).val ∧ (i 0).val < (i 0).val / 2000 * 2000 + 2000; omega
  | ⟨1, _⟩ =>
    show win1_5.index _ (1 : Fin 2) * 256 ≤ (i 1).val ∧ (i 1).val < win1_5.index _ (1 : Fin 2) * 256 + 256
    rw [e1]; omega

/-- THE OUTPUT ARRAY after the region: `G` of the arrays the region found. -/
theorem final (c : Dev nD) : (dat1 V c).arrAt 5 cfg1.N = G V c :=
  (dat1 V c).arrAt_eq_of_cover 5 (G V c) (fun t _ => flushed_eq V c t) (cover)

end Cert.KernelIdeal.Blocks1

end
-- ==== Proof.Agg.lean ====
/-
  The neighbour mean of a graph, as both programs compute it on the host: for every node `n`, the sum of the feature rows
  `h[src e]` over the edges `e` with `dst e = n` (a gather of the source rows followed by a scatter-add onto the
  destination rows), divided by `max (number of such edges) 1`. A negative source index is wrapped once by the number of
  nodes before the gather, as jnp indexing does. The two programs apply this SAME chain of host operations, twice each (to the
  input features and to the first layer's output), so it is carried as one function of the two index vectors and the
  feature matrix and never opened: whatever the gather and the scatter-add do with an index, they do it in both programs.
  `srcOf` / `dstOf` read the two rows of the edge list.
-/
import proofs.«170629_j9706626089388_1_alg».proof.Proof.Gen.ReferenceIdeal

noncomputable section

namespace Cert.Sage

open Idealize.ShloMosaic Cert.ReferenceIdeal Cert.ReferenceIdeal.Gen

variable {F : FTy → Type} [FloatOps F]

/-- Row 0 of the edge list: the source node of every edge. -/
def srcOf (e : IVec S2x800000 32) : IVec S800000 32 :=
  shapeCast _ (extractStridedSlice S1x800000 ![0, 0] e slices_S2x800000_S1x800000_0_0) shapeCasts_S1x800000_S800000

/-- Row 1 of the edge list: the destination node of every edge. -/
def dstOf (e : IVec S2x800000 32) : IVec S800000 32 :=
  shapeCast _ (extractStridedSlice S1x800000 ![1, 0] e slices_S2x800000_S1x800000_1_0) shapeCasts_S1x800000_S800000

/-- The mean over incoming edges of the source rows of `h`, node by node. -/
def agg (src dst : IVec S800000 32) (h : FVec F S50000x128 .f32) : FVec F S50000x128 .f32 :=
  Host.divf
    (Host.scatterAdd scatter_S50000x128_S800000x1_S800000x128_1_0_0_1
      (broadcastInDim S50000x128 ![] bcast_S_S50000x128 (constant (F := F) S_ .f32 0x00000000#32))
      (broadcastInDim S800000x1 ![0] bcast_S800000_S800000x1_0 dst)
      (Host.gather gather_S50000x128_S800000x1_S800000x128_1_0_n_n_0_1_1128 h
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src))))
    (broadcastInDim S50000x128 ![0, 1] bcast_S50000x1_S50000x128_0_1
      (broadcastInDim S50000x1 ![0] bcast_S50000_S50000x1_0
        (maximumf
          (Host.scatterAdd scatter_S50000_S800000x1_S800000_n_0_0_1
            (broadcastInDim S50000 ![] bcast_S_S50000 (constant (F := F) S_ .f32 0x00000000#32))
            (broadcastInDim S800000x1 ![0] bcast_S800000_S800000x1_0 dst)
            (broadcastInDim S800000 ![] bcast_S_S800000 (constant (F := F) S_ .f32 0x3F800000#32)))
          (broadcastInDim S50000 ![] bcast_S_S50000 (constant (F := F) S_ .f32 0x3F800000#32)))))

end Cert.Sage

end
-- ==== Proof.HostK.lean ====
/-
  The host stretches of the program: what each array a kernel region reads holds when the region is entered, as a term of the
  launch contents. Before the first region the host computes the neighbour mean of the input features and lays the first bias
  out as a row; between the regions it computes the neighbour mean of the first region's output and lays the second bias out as
  a row. The arguments are never written.
-/
import proofs.«170629_j9706626089388_1_alg».proof.Proof.Gen.KernelIdeal.Frame
import proofs.«170629_j9706626089388_1_alg».proof.Proof.Agg
import Idealize.ShloMosaic.Lib.StableHlo.Run

set_option maxRecDepth 16384

noncomputable section

namespace Cert.KernelIdeal.Host

open Idealize.ShloMosaic Idealize.ShloMosaic.TcCoe Idealize.SL.Sem Idealize.ShloMosaic.StableHlo
open Cert.KernelIdeal Cert.KernelIdeal.Gen Cert.Sage

variable {F : FTy → Type} [FloatOps F]
variable (m : (ℓ : Loc nD τ sig) → Buf (Elt F) ℓ) (ρ : Dev nD → PrngReg)

/-! ## At the first region's entry -/

theorem V1_arg0 (c : Dev nD) : V1 m ρ c main_arg0 = m ((c.tc : Thread nD τ).loc main_arg0) := by
  show StableHlo.after hostOps0 (W0 m ρ c) (Proc.devRef .tc main_arg0) = _
  after_results_simp <;> rfl
theorem V1_arg2 (c : Dev nD) : V1 m ρ c main_arg2 = m ((c.tc : Thread nD τ).loc main_arg2) := by
  show StableHlo.after hostOps0 (W0 m ρ c) (Proc.devRef .tc main_arg2) = _
  after_results_simp <;> rfl
theorem V1_arg3 (c : Dev nD) : V1 m ρ c main_arg3 = m ((c.tc : Thread nD τ).loc main_arg3) := by
  show StableHlo.after hostOps0 (W0 m ρ c) (Proc.devRef .tc main_arg3) = _
  after_results_simp <;> rfl
theorem V1_arg5 (c : Dev nD) : V1 m ρ c main_arg5 = m ((c.tc : Thread nD τ).loc main_arg5) := by
  show StableHlo.after hostOps0 (W0 m ρ c) (Proc.devRef .tc main_arg5) = _
  after_results_simp <;> rfl
theorem V1_arg6 (c : Dev nD) : V1 m ρ c main_arg6 = m ((c.tc : Thread nD τ).loc main_arg6) := by
  show StableHlo.after hostOps0 (W0 m ρ c) (Proc.devRef .tc main_arg6) = _
  after_results_simp <;> rfl
theorem V1_arg7 (c : Dev nD) : V1 m ρ c main_arg7 = m ((c.tc : Thread nD τ).loc main_arg7) := by
  show StableHlo.after hostOps0 (W0 m ρ c) (Proc.devRef .tc main_arg7) = _
  after_results_simp <;> rfl

/-- The source node of every edge, as the first host stretch leaves it. -/
theorem V1_v1 (c : Dev nD) : V1 m ρ c main_v1 = srcOf (m ((c.tc : Thread nD τ).loc main_arg1)) := by
  show StableHlo.after hostOps0 (W0 m ρ c) (Proc.devRef .tc main_v1) = _
  after_results_simp <;> rfl
/-- The destination node of every edge, as the first host stretch leaves it. -/
theorem V1_v3 (c : Dev nD) : V1 m ρ c main_v3 = dstOf (m ((c.tc : Thread nD τ).loc main_arg1)) := by
  show StableHlo.after hostOps0 (W0 m ρ c) (Proc.devRef .tc main_v3) = _
  after_results_simp <;> rfl

/-- The first region's aggregated features: the neighbour mean of the input features. -/
theorem V1_v22 (c : Dev nD) :
    V1 m ρ c main_v22 = agg (F := F) (srcOf (m ((c.tc : Thread nD τ).loc main_arg1))) (dstOf (m ((c.tc : Thread nD τ).loc main_arg1)))
      (m ((c.tc : Thread nD τ).loc main_arg0)) := by
  show StableHlo.after hostOps0 (W0 m ρ c) (Proc.devRef .tc main_v22) = _
  after_results_simp <;> rfl

/-- The first bias as a one-row matrix. -/
theorem V1_v23 (c : Dev nD) :
    V1 m ρ c main_v23 = shapeCast S1x128 (m ((c.tc : Thread nD τ).loc main_arg4)) shapeCasts_S128_S1x128 := by
  show StableHlo.after hostOps0 (W0 m ρ c) (Proc.devRef .tc main_v23) = _
  after_results_simp <;> rfl

/-! ## At the first region's exit -/

theorem V2_v24 (c : Dev nD) : V2 m ρ c main_v24 = (dat0 (V1 m ρ) c).arrAt 5 cfg0.N := W2_arr m ρ c 5

theorem V2_of_ne (c : Dev nD) (b : Ref sig .tc) (hb : ∀ w, Pipeline.arrRef spec0 w ≠ b) : V2 m ρ c b = V1 m ρ c b :=
  W2_of_ne m ρ c b hb

/-! ## At the second region's entry -/

theorem V3_v24 (c : Dev nD) : V3 m ρ c main_v24 = V2 m ρ c main_v24 := by
  show StableHlo.after hostOps1 (W2 m ρ c) (Proc.devRef .tc main_v24) = _
  after_results_simp <;> rfl
theorem V3_arg5 (c : Dev nD) : V3 m ρ c main_arg5 = m ((c.tc : Thread nD τ).loc main_arg5) := by
  refine Eq.trans ?_ ((V2_of_ne m ρ c main_arg5 (by decide)).trans (V1_arg5 m ρ c))
  show StableHlo.after hostOps1 (W2 m ρ c) (Proc.devRef .tc main_arg5) = _
  after_results_simp <;> rfl
theorem V3_arg6 (c : Dev nD) : V3 m ρ c main_arg6 = m ((c.tc : Thread nD τ).loc main_arg6) := by
  refine Eq.trans ?_ ((V2_of_ne m ρ c main_arg6 (by decide)).trans (V1_arg6 m ρ c))
  show StableHlo.after hostOps1 (W2 m ρ c) (Proc.devRef .tc main_arg6) = _
  after_results_simp <;> rfl

/-- The second bias as a one-row matrix. -/
theorem V3_v44 (c : Dev nD) :
    V3 m ρ c main_v44 = shapeCast S1x256 (m ((c.tc : Thread nD τ).loc main_arg7)) shapeCasts_S256_S1x256 := by
  have e : V2 m ρ c main_arg7 = m ((c.tc : Thread nD τ).loc main_arg7) :=
    (V2_of_ne m ρ c main_arg7 (by decide)).trans (V1_arg7 m ρ c)
  rw [← e]
  show StableHlo.after hostOps1 (W2 m ρ c) (Proc.devRef .tc main_v44) = _
  after_results_simp <;> rfl

/-- The second region's aggregated features: the neighbour mean of the first region's output. -/
theorem V3_v43 (c : Dev nD) :
    V3 m ρ c main_v43 = agg (F := F) (srcOf (m ((c.tc : Thread nD τ).loc main_arg1))) (dstOf (m ((c.tc : Thread nD τ).loc main_arg1)))
      (V2 m ρ c main_v24) := by
  have e1 : V2 m ρ c main_v1 = srcOf (m ((c.tc : Thread nD τ).loc main_arg1)) :=
    (V2_of_ne m ρ c main_v1 (by decide)).trans (V1_v1 m ρ c)
  have e3 : V2 m ρ c main_v3 = dstOf (m ((c.tc : Thread nD τ).loc main_arg1)) :=
    (V2_of_ne m ρ c main_v3 (by decide)).trans (V1_v3 m ρ c)
  rw [← e1, ← e3]
  show StableHlo.after hostOps1 (W2 m ρ c) (Proc.devRef .tc main_v43) = _
  after_results_simp <;> rfl

/-! ## At the second region's exit -/

theorem W4_v45 (c : Dev nD) : W4 m ρ c (Proc.devRef .tc main_v45) = (dat1 (V3 m ρ) c).arrAt 5 cfg1.N := W4_arr m ρ c 5

end Cert.KernelIdeal.Host

end
-- ==== Proof.Model.lean ====
/-
  The whole computation as one function of the eight inputs: the neighbour mean of the features, one layer (two linear maps,
  bias, logistic, row normalisation), the neighbour mean of that layer's output, a second layer, and the log-softmax of every row.
  Both programs are shown to end at this function of their arguments.
-/
import proofs.«170629_j9706626089388_1_alg».proof.Proof.Rows
import proofs.«170629_j9706626089388_1_alg».proof.Proof.Agg

noncomputable section

namespace Cert.Sage

open Idealize.ShloMosaic Idealize.ShloMosaic.ValueIdx Cert.ReferenceIdeal

/-- The first layer's output: node embeddings of width 128. -/
def firstLayer (x : FVec Ideal S50000x128 .f32) (e : IVec S2x800000 32) (w1l w1r : FVec Ideal S128x128 .f32) (b1 : FVec Ideal S128 .f32) :
    FVec Ideal S50000x128 .f32 :=
  layerArr (agg (F := Ideal) (srcOf e) (dstOf e) x) x w1l w1r (fun q : Fin 128 => b1 (ix1 q))

/-- The result: the second layer on the first layer's output, then the row log-softmax. -/
def model (x : FVec Ideal S50000x128 .f32) (e : IVec S2x800000 32) (w1l w1r : FVec Ideal S128x128 .f32) (b1 : FVec Ideal S128 .f32)
    (w2l w2r : FVec Ideal S128x256 .f32) (b2 : FVec Ideal S256 .f32) : FVec Ideal S50000x256 .f32 :=
  lsmArr (layerArr (agg (F := Ideal) (srcOf e) (dstOf e) (firstLayer x e w1l w1r b1)) (firstLayer x e w1l w1r b1) w2l w2r
    (fun q : Fin 256 => b2 (ix1 q)))

end Cert.Sage

end
-- ==== Proof.KernelValue.lean ====
/-
  What the kernel program's result buffer ends holding: the model of the launch contents of its arguments.

  The result is the second region's output array: the log-softmax of a layer of the arrays that region finds, which are the
  neighbour mean of the first region's output, that output, the second layer's weights and its bias as a row. The first region's
  output is a layer of the neighbour mean of the input features, the features, the first layer's weights and its bias as a row.
-/
import proofs.«170629_j9706626089388_1_alg».proof.Proof.KernelRun
import proofs.«170629_j9706626089388_1_alg».proof.Proof.Blocks0
import proofs.«170629_j9706626089388_1_alg».proof.Proof.Blocks1
import proofs.«170629_j9706626089388_1_alg».proof.Proof.HostK
import proofs.«170629_j9706626089388_1_alg».proof.Proof.Model
import Idealize.ShloMosaic.Lib.ValueLayout

set_option maxRecDepth 16384

noncomputable section

namespace Cert.KernelIdeal.Result

open Idealize.ShloMosaic Idealize.ShloMosaic.TcCoe Idealize.ShloMosaic.ValueIdx Idealize.SL.Sem
open Cert.KernelIdeal Cert.KernelIdeal.Gen Cert.Sage

variable (m : (ℓ : Loc nD τ sig) → Buf (Elt Ideal) ℓ) (ρ : Dev nD → PrngReg)

/-- Equal arrays give equal layers. -/
theorem layerArr_congr {R D N : ℕ} {A A' X X' : (⟨2, ![R, D]⟩ : Shape).Idx → EReal} {Wl Wl' Wr Wr' : (⟨2, ![D, N]⟩ : Shape).Idx → EReal}
    {b b' : Fin N → EReal} (hA : A = A') (hX : X = X') (hl : Wl = Wl') (hr : Wr = Wr') (hb : b = b') :
    layerArr A X Wl Wr b = layerArr A' X' Wl' Wr' b' := by
  subst hA hX hl hr hb; rfl

/-- The first region's output array is the first layer of the inputs. -/
theorem firstLayer_eq (c : Dev nD) :
    V2 m ρ c main_v24 = firstLayer (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  rw [Cert.KernelIdeal.Host.V2_v24, Cert.KernelIdeal.Blocks0.final]
  unfold Cert.KernelIdeal.Blocks0.G firstLayer
  refine layerArr_congr ?_ ?_ ?_ ?_ (funext fun q => ?_)
  · exact Cert.KernelIdeal.Host.V1_v22 m ρ c
  · exact Cert.KernelIdeal.Host.V1_arg0 m ρ c
  · exact Cert.KernelIdeal.Host.V1_arg2 m ρ c
  · exact Cert.KernelIdeal.Host.V1_arg3 m ρ c
  · show V1 m ρ c main_v23 (ix2 (0 : Fin 1) q) = _
    rw [Cert.KernelIdeal.Host.V1_v23]
    exact shapeCast_a_1a_apply _ _ 0 q

/-- The result buffer ends at the model of the arguments. -/
theorem result_eq (c : Dev nD) :
    W4 m ρ c (Proc.devRef .tc main_v45) = model (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) := by
  rw [Cert.KernelIdeal.Host.W4_v45, Cert.KernelIdeal.Blocks1.final]
  unfold Cert.KernelIdeal.Blocks1.G model
  refine congrArg lsmArr (layerArr_congr ?_ ?_ ?_ ?_ (funext fun q => ?_))
  · show V3 m ρ c main_v43 = _
    rw [Cert.KernelIdeal.Host.V3_v43, firstLayer_eq]
  · show V3 m ρ c main_v24 = _
    rw [Cert.KernelIdeal.Host.V3_v24, firstLayer_eq]
  · exact Cert.KernelIdeal.Host.V3_arg5 m ρ c
  · exact Cert.KernelIdeal.Host.V3_arg6 m ρ c
  · show V3 m ρ c main_v44 (ix2 (0 : Fin 1) q) = _
    rw [Cert.KernelIdeal.Host.V3_v44]
    exact shapeCast_a_1a_apply _ _ 0 q

/-- The program's run, its result named: the model of the arguments. -/
theorem run : θ_run defs (onTc (τ := τ) (main (F := Ideal))) ⟨m, fun _ => 0, ρ⟩ (fun r => ∀ c : Dev nD,
      r.2.mem ((c.tc : Thread nD τ).loc main_v45) = model (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c), (h c).2⟩) (Cert.KernelIdeal.GenP.run_named m ρ)

end Cert.KernelIdeal.Result

end
-- ==== Proof.RefStages.lean ====
/-
  The reference's stages as the row functions.
-/
import proofs.«170629_j9706626089388_1_alg».proof.Proof.RefRead
import proofs.«170629_j9706626089388_1_alg».proof.Proof.Rows
import proofs.«170629_j9706626089388_1_alg».proof.Proof.Agg
import Idealize.ShloMosaic.Lib.ValueIdx
import Idealize.ShloMosaic.Lib.Pipeline.Value
import Idealize.ShloMosaic.PureOps.Ideal.Laws

noncomputable section

namespace Cert.ReferenceIdeal.Stages

open Idealize.ShloMosaic Idealize.ShloMosaic.ValueIdx Cert.ReferenceIdeal Cert.ReferenceIdeal.Gen Cert.ReferenceIdeal.ReadP Cert.Sage

section AnyF
variable {F : FTy → Type} [FloatOps F]

theorem v1_eq (x1 : (⟨S2x800000, .i32⟩ : BufTy).Contents (Elt F)) : val_main_v1 (F := F) x1 = srcOf x1 := by
  unfold val_main_v1 val_main_v0 srcOf
  rfl

theorem v3_eq (x1 : (⟨S2x800000, .i32⟩ : BufTy).Contents (Elt F)) : val_main_v3 (F := F) x1 = dstOf x1 := by
  unfold val_main_v3 val_main_v2 dstOf
  rfl

theorem v22_eq (x0 : (⟨S50000x128, .f32⟩ : BufTy).Contents (Elt F)) (x1 : (⟨S2x800000, .i32⟩ : BufTy).Contents (Elt F)) :
    val_main_v22 (F := F) x0 x1 = agg (F := F) (srcOf x1) (dstOf x1) x0 := by
  unfold val_main_v22 val_main_v21 val_main_v20 val_main_v19 val_main_v18 val_main_cst_3 val_main_v17 val_main_v16
    val_main_v15 val_main_cst_2 val_main_v14 val_main_cst_1 val_main_v13 val_main_v12 val_main_v11 val_main_cst
    val_main_v10 val_main_v9 val_main_v8 val_main_v7 val_main_v6 val_main_c_0 val_main_v5 val_main_v4 val_main_c agg
  rw [v1_eq, v3_eq]

theorem v61_eq (x0 : (⟨S50000x128, .f32⟩ : BufTy).Contents (Elt F)) (x1 : (⟨S2x800000, .i32⟩ : BufTy).Contents (Elt F))
    (x2 x3 : (⟨S128x128, .f32⟩ : BufTy).Contents (Elt F)) (x4 : (⟨S128, .f32⟩ : BufTy).Contents (Elt F)) :
    val_main_v61 (F := F) x0 x1 x2 x3 x4 = agg (F := F) (srcOf x1) (dstOf x1) (val_main_v42 (F := F) x0 x1 x2 x3 x4) := by
  unfold val_main_v61 val_main_v60 val_main_v59 val_main_v58 val_main_v57 val_main_cst_13 val_main_v56 val_main_v55
    val_main_v54 val_main_cst_12 val_main_v53 val_main_cst_11 val_main_v52 val_main_v51 val_main_v50 val_main_cst_10
    val_main_v49 val_main_v48 val_main_v47 val_main_v46 val_main_v45 val_main_c_9 val_main_v44 val_main_v43 val_main_c_8 agg
  rw [v1_eq, v3_eq]

end AnyF

/-- The f32 word of one denotes one. -/
theorem ofBits_one_f32 : Ideal.ofBits .f32 0x3F800000#32 = (1 : EReal) := by
  simp [Ideal.ofBits, Ideal.ieee, -EReal.coe_mul]; norm_num

/-- The logistic stage of the first layer at row `p`, column `c`: `act` of row `p` of the neighbour mean and of the features. -/
theorem v34_at (x0 : (⟨S50000x128, .f32⟩ : BufTy).Contents (Elt Ideal)) (x1 : (⟨S2x800000, .i32⟩ : BufTy).Contents (Elt Ideal))
    (x2 x3 : (⟨S128x128, .f32⟩ : BufTy).Contents (Elt Ideal)) (x4 : (⟨S128, .f32⟩ : BufTy).Contents (Elt Ideal))
    (p : Fin 50000) (c : Fin 128) :
    val_main_v34 (F := Ideal) x0 x1 x2 x3 x4 (ix2 p c)
      = act (fun k => val_main_v22 (F := Ideal) x0 x1 (ix2 p k)) (fun k => x0 (ix2 p k)) (fun k c => x2 (ix2 k c))
          (fun k c => x3 (ix2 k c)) (fun c : Fin 128 => x4 (ix1 c)) c := by
  rw [val_main_v34_apply, val_main_v33_apply, val_main_cst_5_apply, val_main_v32_apply, val_main_v31_apply, val_main_cst_4_apply,
    val_main_v30_apply, val_main_v29_apply, val_main_v28_apply, val_main_v25_apply, val_main_v27_apply, val_main_v26_apply,
    val_main_v23_apply, val_main_v24_apply]
  have e1 : ∀ k : Fin 128, lidx_main_v23 (ix2 p c) k = ix2 p k := fun k =>
    funext fun a => Fin.ext (by match a with | ⟨0, _⟩ => rfl | ⟨1, _⟩ => rfl)
  have e2 : ∀ k : Fin 128, ridx_main_v23 (ix2 p c) k = ix2 k c := fun k =>
    funext fun a => Fin.ext (by match a with | ⟨0, _⟩ => rfl | ⟨1, _⟩ => rfl)
  have e3 : ∀ k : Fin 128, lidx_main_v24 (ix2 p c) k = ix2 p k := fun k =>
    funext fun a => Fin.ext (by match a with | ⟨0, _⟩ => rfl | ⟨1, _⟩ => rfl)
  have e4 : ∀ k : Fin 128, ridx_main_v24 (ix2 p c) k = ix2 k c := fun k =>
    funext fun a => Fin.ext (by match a with | ⟨0, _⟩ => rfl | ⟨1, _⟩ => rfl)
  have e5 : idx_main_v26 (idx_main_v27 (ix2 p c)) = ix1 c :=
    funext fun a => Fin.ext (by match a with | ⟨0, _⟩ => rfl)
  simp only [e1, e2, e3, e4, e5]
  simp only [Ideal.hostDivf_def, Ideal.hostUnary_exp_def, Ideal.hostNegf_def, Ideal.negf_def, Ideal.addf_def, Ideal.ofBits_def,
    ofBits_one_f32]
  rfl

theorem v42_eq (x0 : (⟨S50000x128, .f32⟩ : BufTy).Contents (Elt Ideal)) (x1 : (⟨S2x800000, .i32⟩ : BufTy).Contents (Elt Ideal))
    (x2 x3 : (⟨S128x128, .f32⟩ : BufTy).Contents (Elt Ideal)) (x4 : (⟨S128, .f32⟩ : BufTy).Contents (Elt Ideal)) :
    val_main_v42 (F := Ideal) x0 x1 x2 x3 x4
      = layerArr (val_main_v22 (F := Ideal) x0 x1) x0 x2 x3 (fun c : Fin 128 => x4 (ix1 c)) := by
  funext i
  obtain ⟨p, q, rfl⟩ : ∃ (p : Fin 50000) (q : Fin 128), i = ix2 p q := ⟨i 0, i 1, eq_ix2 i⟩
  rw [layerArr_ix2, val_main_v42_apply, val_main_v41_apply, val_main_v40_apply, val_main_v38_apply, val_main_v39_apply,
    val_main_cst_7_apply, val_main_v37_apply, val_main_v36_apply, val_main_cst_6_apply]
  have e : ∀ k : Fin 128, idx_main_v36 (idx_main_v37 (idx_main_v41 (ix2 p q))) k = ix2 p k := fun k =>
    funext fun a => Fin.ext (by match a with | ⟨0, _⟩ => rfl | ⟨1, _⟩ => rfl)
  have hs : ∀ k : Fin 128, val_main_v35 (F := Ideal) x0 x1 x2 x3 x4 (idx_main_v36 (idx_main_v37 (idx_main_v41 (ix2 p q))) k)
      = act (fun k => val_main_v22 (F := Ideal) x0 x1 (ix2 p k)) (fun k => x0 (ix2 p k)) (fun k c => x2 (ix2 k c))
          (fun k c => x3 (ix2 k c)) (fun c : Fin 128 => x4 (ix1 c)) k
        * act (fun k => val_main_v22 (F := Ideal) x0 x1 (ix2 p k)) (fun k => x0 (ix2 p k)) (fun k c => x2 (ix2 k c))
          (fun k c => x3 (ix2 k c)) (fun c : Fin 128 => x4 (ix1 c)) k := fun k => by
    rw [e k, val_main_v35_apply, v34_at]; rfl
  rw [Finset.sum_congr rfl (fun k _ => hs k), v34_at]
  simp only [Ideal.hostDivf_def, Ideal.hostUnary_sqrt_def, Ideal.maximumf_def, Ideal.ofBits_def, Ideal.ofBits_zero_f32, zero_add]
  rfl

/-- The logistic stage of the second layer at row `p`, column `c`: `act` of row `p` of the neighbour mean of the first
    layer's output and of that output. -/
theorem v73_at (x0 : (⟨S50000x128, .f32⟩ : BufTy).Contents (Elt Ideal)) (x1 : (⟨S2x800000, .i32⟩ : BufTy).Contents (Elt Ideal))
    (x2 x3 : (⟨S128x128, .f32⟩ : BufTy).Contents (Elt Ideal)) (x4 : (⟨S128, .f32⟩ : BufTy).Contents (Elt Ideal))
    (x5 x6 : (⟨S128x256, .f32⟩ : BufTy).Contents (Elt Ideal)) (x7 : (⟨S256, .f32⟩ : BufTy).Contents (Elt Ideal))
    (p : Fin 50000) (c : Fin 256) :
    val_main_v73 (F := Ideal) x0 x1 x2 x3 x4 x5 x6 x7 (ix2 p c)
      = act (fun k => val_main_v61 (F := Ideal) x0 x1 x2 x3 x4 (ix2 p k)) (fun k => val_main_v42 (F := Ideal) x0 x1 x2 x3 x4 (ix2 p k))
          (fun k c => x5 (ix2 k c)) (fun k c => x6 (ix2 k c)) (fun c : Fin 256 => x7 (ix1 c)) c := by
  rw [val_main_v73_apply, val_main_v72_apply, val_main_cst_15_apply, val_main_v71_apply, val_main_v70_apply, val_main_cst_14_apply,
    val_main_v69_apply, val_main_v68_apply, val_main_v67_apply, val_main_v64_apply, val_main_v66_apply, val_main_v65_apply,
    val_main_v62_apply, val_main_v63_apply]
  have e1 : ∀ k : Fin 128, lidx_main_v62 (ix2 p c) k = ix2 p k := fun k =>
    funext fun a => Fin.ext (by match a with | ⟨0, _⟩ => rfl | ⟨1, _⟩ => rfl)
  have e2 : ∀ k : Fin 128, ridx_main_v62 (ix2 p c) k = ix2 k c := fun k =>
    funext fun a => Fin.ext (by match a with | ⟨0, _⟩ => rfl | ⟨1, _⟩ => rfl)
  have e3 : ∀ k : Fin 128, lidx_main_v63 (ix2 p c) k = ix2 p k := fun k =>
    funext fun a => Fin.ext (by match a with | ⟨0, _⟩ => rfl | ⟨1, _⟩ => rfl)
  have e4 : ∀ k : Fin 128, ridx_main_v63 (ix2 p c) k = ix2 k c := fun k =>
    funext fun a => Fin.ext (by match a with | ⟨0, _⟩ => rfl | ⟨1, _⟩ => rfl)
  have e5 : idx_main_v65 (idx_main_v66 (ix2 p c)) = ix1 c :=
    funext fun a => Fin.ext (by match a with | ⟨0, _⟩ => rfl)
  simp only [e1, e2, e3, e4, e5]
  simp only [Ideal.hostDivf_def, Ideal.hostUnary_exp_def, Ideal.hostNegf_def, Ideal.negf_def, Ideal.addf_def, Ideal.ofBits_def,
    ofBits_one_f32]
  rfl

theorem v81_eq (x0 : (⟨S50000x128, .f32⟩ : BufTy).Contents (Elt Ideal)) (x1 : (⟨S2x800000, .i32⟩ : BufTy).Contents (Elt Ideal))
    (x2 x3 : (⟨S128x128, .f32⟩ : BufTy).Contents (Elt Ideal)) (x4 : (⟨S128, .f32⟩ : BufTy).Contents (Elt Ideal))
    (x5 x6 : (⟨S128x256, .f32⟩ : BufTy).Contents (Elt Ideal)) (x7 : (⟨S256, .f32⟩ : BufTy).Contents (Elt Ideal)) :
    val_main_v81 (F := Ideal) x0 x1 x2 x3 x4 x5 x6 x7
      = layerArr (val_main_v61 (F := Ideal) x0 x1 x2 x3 x4) (val_main_v42 (F := Ideal) x0 x1 x2 x3 x4) x5 x6 (fun c : Fin 256 => x7 (ix1 c)) := by
  funext i
  obtain ⟨p, q, rfl⟩ : ∃ (p : Fin 50000) (q : Fin 256), i = ix2 p q := ⟨i 0, i 1, eq_ix2 i⟩
  rw [layerArr_ix2, val_main_v81_apply, val_main_v80_apply, val_main_v79_apply, val_main_v77_apply, val_main_v78_apply,
    val_main_cst_17_apply, val_main_v76_apply, val_main_v75_apply, val_main_cst_16_apply]
  have e : ∀ k : Fin 256, idx_main_v75 (idx_main_v76 (idx_main_v80 (ix2 p q))) k = ix2 p k := fun k =>
    funext fun a => Fin.ext (by match a with | ⟨0, _⟩ => rfl | ⟨1, _⟩ => rfl)
  have hs : ∀ k : Fin 256, val_main_v74 (F := Ideal) x0 x1 x2 x3 x4 x5 x6 x7 (idx_main_v75 (idx_main_v76 (idx_main_v80 (ix2 p q))) k)
      = act (fun k => val_main_v61 (F := Ideal) x0 x1 x2 x3 x4 (ix2 p k)) (fun k => val_main_v42 (F := Ideal) x0 x1 x2 x3 x4 (ix2 p k))
          (fun k c => x5 (ix2 k c)) (fun k c => x6 (ix2 k c)) (fun c : Fin 256 => x7 (ix1 c)) k
        * act (fun k => val_main_v61 (F := Ideal) x0 x1 x2 x3 x4 (ix2 p k)) (fun k => val_main_v42 (F := Ideal) x0 x1 x2 x3 x4 (ix2 p k))
          (fun k c => x5 (ix2 k c)) (fun k c => x6 (ix2 k c)) (fun c : Fin 256 => x7 (ix1 c)) k := fun k => by
    rw [e k, val_main_v74_apply, v73_at]; rfl
  rw [Finset.sum_congr rfl (fun k _ => hs k), v73_at]
  simp only [Ideal.hostDivf_def, Ideal.hostUnary_sqrt_def, Ideal.maximumf_def, Ideal.ofBits_def, Ideal.ofBits_zero_f32, zero_add]
  rfl

/-- The shifted row: the last layer's output at row `p`, column `c`, minus the maximum of row `p` (the maximum with `-∞` once more
    changes nothing). -/
theorem call0_v5_at (x0 : (⟨S50000x128, .f32⟩ : BufTy).Contents (Elt Ideal)) (x1 : (⟨S2x800000, .i32⟩ : BufTy).Contents (Elt Ideal))
    (x2 x3 : (⟨S128x128, .f32⟩ : BufTy).Contents (Elt Ideal)) (x4 : (⟨S128, .f32⟩ : BufTy).Contents (Elt Ideal))
    (x5 x6 : (⟨S128x256, .f32⟩ : BufTy).Contents (Elt Ideal)) (x7 : (⟨S256, .f32⟩ : BufTy).Contents (Elt Ideal))
    (p : Fin 50000) (c : Fin 256) :
    val_main_call0_v5 (F := Ideal) x0 x1 x2 x3 x4 x5 x6 x7 (ix2 p c)
      = val_main_v81 (F := Ideal) x0 x1 x2 x3 x4 x5 x6 x7 (ix2 p c)
          - rowMax (fun j : Fin 256 => val_main_v81 (F := Ideal) x0 x1 x2 x3 x4 x5 x6 x7 (ix2 p j)) := by
  rw [val_main_call0_v5_apply, val_main_call0_v4_apply, val_main_call0_v3_apply, val_main_call0_v2_apply, val_main_call0_v1_apply,
    val_main_call0_cst_0_apply]
  unfold val_main_call0_v0
  generalize val_main_v81 (F := Ideal) x0 x1 x2 x3 x4 x5 x6 x7 = Y
  have h := Host.reduce_eq_fold_single (FloatOps.maximumf (F := Ideal) (φ := .f32)) Y (val_main_call0_cst (F := Ideal))
    reducesTo_S50000x256_S50000_d1 (by decide) h_S_ (idx_main_call0_v3 (idx_main_call0_v4 (ix2 p c)))
  have e : (Y ∘ (show S50000x256.Reduces [1] S50000 by decide).lift (idx_main_call0_v3 (idx_main_call0_v4 (ix2 p c))))
      = fun j : Fin 256 => Y (ix2 p j) := by
    funext k
    exact congrArg Y (funext fun a => Fin.ext (by match a with | ⟨0, _⟩ => rfl | ⟨1, _⟩ => rfl))
  rw [e, val_main_call0_cst_apply] at h
  refine (congrArg (fun z => FloatOps.subf (Y (ix2 p c)) (FloatOps.maximumf (FloatOps.ofBits FTy.f32 4286578688#32) z)) h).trans ?_
  simp only [Ideal.subf_def, Ideal.maximumf_def, Ideal.ofBits_def]
  rw [rowMax]
  exact congrArg (fun z => Y (ix2 p c) - z) (max_fold_max _ _)

theorem v82_eq (x0 : (⟨S50000x128, .f32⟩ : BufTy).Contents (Elt Ideal)) (x1 : (⟨S2x800000, .i32⟩ : BufTy).Contents (Elt Ideal))
    (x2 x3 : (⟨S128x128, .f32⟩ : BufTy).Contents (Elt Ideal)) (x4 : (⟨S128, .f32⟩ : BufTy).Contents (Elt Ideal))
    (x5 x6 : (⟨S128x256, .f32⟩ : BufTy).Contents (Elt Ideal)) (x7 : (⟨S256, .f32⟩ : BufTy).Contents (Elt Ideal)) :
    val_main_v82 (F := Ideal) x0 x1 x2 x3 x4 x5 x6 x7 = lsmArr (val_main_v81 (F := Ideal) x0 x1 x2 x3 x4 x5 x6 x7) := by
  funext i
  obtain ⟨p, q, rfl⟩ : ∃ (p : Fin 50000) (q : Fin 256), i = ix2 p q := ⟨i 0, i 1, eq_ix2 i⟩
  rw [lsmArr_ix2, val_main_v82_apply, val_main_call0_v10_apply, val_main_call0_v9_apply, val_main_call0_v8_apply,
    val_main_call0_v7_apply, val_main_call0_cst_1_apply]
  have e : ∀ k : Fin 256, idx_main_call0_v7 (idx_main_call0_v8 (idx_main_call0_v10 (ix2 p q))) k = ix2 p k := fun k =>
    funext fun a => Fin.ext (by match a with | ⟨0, _⟩ => rfl | ⟨1, _⟩ => rfl)
  simp only [e, val_main_call0_v6_apply, call0_v5_at]
  generalize val_main_v81 (F := Ideal) x0 x1 x2 x3 x4 x5 x6 x7 = Y
  simp only [Ideal.subf_def, Ideal.hostUnary_log_def, Ideal.hostUnary_exp_def, Ideal.ofBits_def, Ideal.ofBits_zero_f32, zero_add]
  rfl

end Cert.ReferenceIdeal.Stages

end
-- ==== Proof.RefValue.lean ====
/-
  The reference's last stage is the model of its arguments.
-/
import proofs.«170629_j9706626089388_1_alg».proof.Proof.RefStages
import proofs.«170629_j9706626089388_1_alg».proof.Proof.Model

noncomputable section

namespace Cert.ReferenceIdeal.Stages

open Idealize.ShloMosaic Idealize.ShloMosaic.ValueIdx Cert.ReferenceIdeal Cert.ReferenceIdeal.ReadP Cert.Sage

/-- Stage by stage the reference computes the neighbour mean, a layer, the neighbour mean of its output, a second layer and the
    row log-softmax: the model. -/
theorem v82_model (x0 : (⟨S50000x128, .f32⟩ : BufTy).Contents (Elt Ideal)) (x1 : (⟨S2x800000, .i32⟩ : BufTy).Contents (Elt Ideal))
    (x2 x3 : (⟨S128x128, .f32⟩ : BufTy).Contents (Elt Ideal)) (x4 : (⟨S128, .f32⟩ : BufTy).Contents (Elt Ideal))
    (x5 x6 : (⟨S128x256, .f32⟩ : BufTy).Contents (Elt Ideal)) (x7 : (⟨S256, .f32⟩ : BufTy).Contents (Elt Ideal)) :
    val_main_v82 (F := Ideal) x0 x1 x2 x3 x4 x5 x6 x7 = model x0 x1 x2 x3 x4 x5 x6 x7 := by
  rw [v82_eq, v81_eq, v61_eq, v42_eq, v22_eq]
  rfl

end Cert.ReferenceIdeal.Stages

end
-- ==== Proof.lean ====
/-
  The certificate of a two-layer GraphSAGE network with a row log-softmax (50000 nodes, 800000 edges, features of width 128, a
  hidden width of 128 and 256 classes), computed by two Pallas kernels with host gather / scatter-add between them, against
  its jnp reference.

  Each layer is `unit (logistic (mean_neighbours(h) · W_l + h · W_r + b))`, the neighbour mean a gather of the source rows
  scatter-added onto the destination rows and divided by the clamped in-degree, `unit` the division of a row by its Euclidean
  norm clamped below. The neighbour mean is computed by the same host operations in both programs and is carried unopened
  (`Cert.Sage.agg`). What differs is the tiling: the kernels compute a layer 2000 rows at a time, with the two matrix products into
  zero accumulators, the sums of squares as lane reductions and the logistic as one operation, where the reference computes it
  on all rows at once with `dot_general`, `reduce` and the expansion `1 / (1 + e^(-x))`. Over the extended reals none of
  that is a difference: an output row is a function of the same row of the inputs (`Cert.Sage.layerAt_congr`), the
  products and sums are the same finite sums, the logistic is its expansion by definition, and a format change is the identity.
  Both programs end at `Cert.Sage.model` of their arguments. No law of arithmetic is used that could fail at an infinity, so
  the precondition (finite inputs) is never opened.

  The three frames: the two kernel programs' are the generated frames; the reference's is its run with the result dropped.
  The idealization rewrote no operation, so `preserves` is trivial.
-/
import proofs.«170629_j9706626089388_1_alg».proof.Defs
import proofs.«170629_j9706626089388_1_alg».proof.Proof.Gen.Kernel
import proofs.«170629_j9706626089388_1_alg».proof.Proof.Gen.Kernel.Skeleton
import proofs.«170629_j9706626089388_1_alg».proof.Proof.Gen.Kernel.Launch
import proofs.«170629_j9706626089388_1_alg».proof.Proof.Gen.Kernel.Points
import proofs.«170629_j9706626089388_1_alg».proof.Proof.Gen.Kernel.Frame
import proofs.«170629_j9706626089388_1_alg».proof.Proof.Gen.KernelIdeal
import proofs.«170629_j9706626089388_1_alg».proof.Proof.Gen.KernelIdeal.Skeleton
import proofs.«170629_j9706626089388_1_alg».proof.Proof.Gen.KernelIdeal.Launch
import proofs.«170629_j9706626089388_1_alg».proof.Proof.Gen.KernelIdeal.Points
import proofs.«170629_j9706626089388_1_alg».proof.Proof.Gen.KernelIdeal.Frame
import proofs.«170629_j9706626089388_1_alg».proof.Proof.Gen.ReferenceIdeal
import proofs.«170629_j9706626089388_1_alg».proof.Proof.Gen.Pre_finite_inputs
import proofs.«170629_j9706626089388_1_alg».proof.Proof.KernelValue
import proofs.«170629_j9706626089388_1_alg».proof.Proof.RefRun
import proofs.«170629_j9706626089388_1_alg».proof.Proof.RefValue
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's run, its result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RunP.run (F := Ideal) m ρ)

/-- Both programs end at the model of their arguments, and the arguments agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.RunP.run (F := Ideal) m' ρ')
  obtain ⟨e0, e1, e2, e3, e4, e5, e6, e7⟩ := hagree c
  rw [e0, e1, e2, e3, e4, e5, e6, e7]
  exact Cert.ReferenceIdeal.Stages.v82_model _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
